-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S1x4096 : Shape := ⟨2, ![1, 4096]⟩
abbrev S1x6 : Shape := ⟨2, ![1, 6]⟩
abbrev S32000x1024 : Shape := ⟨2, ![32000, 1024]⟩
abbrev S12288x1030 : Shape := ⟨2, ![12288, 1030]⟩
abbrev S12288 : Shape := ⟨1, ![12288]⟩
abbrev S12288x4096 : Shape := ⟨2, ![12288, 4096]⟩
abbrev S_ : Shape := ⟨0, ![]⟩

class Facts : Prop where
  bcast_S_S1x4096 : S_.BroadcastsInDim S1x4096 (![] : Fin 0 → Fin S1x4096.rank)
  reducesTo_S1x4096_S_d0_1 : S1x4096.ReducesTo [0, 1] S_
  h_S_ : 0 < S_.numel
  bcast_S_S1x6 : S_.BroadcastsInDim S1x6 (![] : Fin 0 → Fin S1x6.rank)
  reducesTo_S1x6_S_d0_1 : S1x6.ReducesTo [0, 1] S_
  bcast_S_S32000x1024 : S_.BroadcastsInDim S32000x1024 (![] : Fin 0 → Fin S32000x1024.rank)
  reducesTo_S32000x1024_S_d0_1 : S32000x1024.ReducesTo [0, 1] S_
  bcast_S_S12288x1030 : S_.BroadcastsInDim S12288x1030 (![] : Fin 0 → Fin S12288x1030.rank)
  reducesTo_S12288x1030_S_d0_1 : S12288x1030.ReducesTo [0, 1] S_
  bcast_S_S12288 : S_.BroadcastsInDim S12288 (![] : Fin 0 → Fin S12288.rank)
  reducesTo_S12288_S_d0 : S12288.ReducesTo [0] S_
  bcast_S_S12288x4096 : S_.BroadcastsInDim S12288x4096 (![] : Fin 0 → Fin S12288x4096.rank)
  reducesTo_S12288x4096_S_d0_1 : S12288x4096.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg0 : IVec S1 32) (main_v33 : IVec S_ 1) : IVec S_ 1 :=
  let main_c_12 : IVec S_ 32 := constantI S_ 32 0#32
  let main_v34 : IVec S1 32 := broadcastInDim S1 ![] bcast_S_S1 main_c_12
  let main_v35 : IVec S1 1 := cmpi .sge main_arg0 main_v34
  let main_c_13 : IVec S_ 1 := constantI S_ 1 1#1
  let main_v36 : IVec S_ 1 := (fun x v => Host.reduce IntOp.andi x v reducesTo_S1_S_d0 h_S_) main_v35 main_c_13
  let main_v37 : IVec S_ 1 := andi main_v33 main_v36
  let main_c_14 : IVec S_ 32 := constantI S_ 32 32000#32
  let main_v38 : IVec S1 32 := broadcastInDim S1 ![] bcast_S_S1 main_c_14
  let main_v39 : IVec S1 1 := cmpi .slt main_arg0 main_v38
  let main_c_15 : IVec S_ 1 := constantI S_ 1 1#1
  let main_v40 : IVec S_ 1 := (fun x v => Host.reduce IntOp.andi x v reducesTo_S1_S_d0 h_S_) main_v39 main_c_15
  let main_v41 : IVec S_ 1 := andi main_v37 main_v40
  main_v41

def fn_part1 {F : FTy → Type} [FloatOps F] (main_arg0 : IVec S1 32) (main_arg5 : FVec F S12288 .f32) (main_arg6 : FVec F S12288x4096 .f32) (main_arg7 : FVec F S12288 .f32) (main_v13 : IVec S_ 1) (main_v16 : IVec S12288x1030 1) : IVec S_ 1 :=
  let main_c_5 : IVec S_ 1 := constantI S_ 1 1#1
  let main_v17 : IVec S_ 1 := (fun x v => Host.reduce IntOp.andi x v reducesTo_S12288x1030_S_d0_1 h_S_) main_v16 main_c_5
  let main_v18 : IVec S_ 1 := andi main_v13 main_v17
  let main_v19 : FVec F S12288 .f32 := Host.absf main_arg5
  let main_cst_6 : FVec F S_ .f32 := constant S_ .f32 0x7F800000#32
  let main_v20 : FVec F S12288 .f32 := broadcastInDim S12288 ![] bcast_S_S12288 main_cst_6
  let main_v21 : IVec S12288 1 := cmpf .olt main_v19 main_v20
  let main_c_7 : IVec S_ 1 := constantI S_ 1 1#1
  let main_v22 : IVec S_ 1 := (fun x v => Host.reduce IntOp.andi x v reducesTo_S12288_S_d0 h_S_) main_v21 main_c_7
  let main_v23 : IVec S_ 1 := andi main_v18 main_v22
  let main_v24 : FVec F S12288x4096 .f32 := Host.absf main_arg6
  let main_cst_8 : FVec F S_ .f32 := constant S_ .f32 0x7F800000#32
  let main_v25 : FVec F S12288x4096 .f32 := broadcastInDim S12288x4096 ![] bcast_S_S12288x4096 main_cst_8
  let main_v26 : IVec S12288x4096 1 := cmpf .olt main_v24 main_v25
  let main_c_9 : IVec S_ 1 := constantI S_ 1 1#1
  let main_v27 : IVec S_ 1 := (fun x v => Host.reduce IntOp.andi x v reducesTo_S12288x4096_S_d0_1 h_S_) main_v26 main_c_9
  let main_v28 : IVec S_ 1 := andi main_v23 main_v27
  let main_v29 : FVec F S12288 .f32 := Host.absf main_arg7
  let main_cst_10 : FVec F S_ .f32 := constant S_ .f32 0x7F800000#32
  let main_v30 : FVec F S12288 .f32 := broadcastInDim S12288 ![] bcast_S_S12288 main_cst_10
  let main_v31 : IVec S12288 1 := cmpf .olt main_v29 main_v30
  let main_c_11 : IVec S_ 1 := constantI S_ 1 1#1
  let main_v32 : IVec S_ 1 := (fun x v => Host.reduce IntOp.andi x v reducesTo_S12288_S_d0 h_S_) main_v31 main_c_11
  let main_v33 : IVec S_ 1 := andi main_v28 main_v32
  fn_part2 (F := F) main_arg0 main_v33

def fn {F : FTy → Type} [FloatOps F] (main_arg0 : IVec S1 32) (main_arg1 : FVec F S1x4096 .f32) (main_arg2 : FVec F S1x6 .f32) (main_arg3 : FVec F S32000x1024 .f32) (main_arg4 : FVec F S12288x1030 .f32) (main_arg5 : FVec F S12288 .f32) (main_arg6 : FVec F S12288x4096 .f32) (main_arg7 : FVec F S12288 .f32) : IVec S_ 1 :=
  let main_v0 : FVec F S1x4096 .f32 := Host.absf main_arg1
  let main_cst : FVec F S_ .f32 := constant S_ .f32 0x7F800000#32
  let main_v1 : FVec F S1x4096 .f32 := broadcastInDim S1x4096 ![] bcast_S_S1x4096 main_cst
  let main_v2 : IVec S1x4096 1 := cmpf .olt main_v0 main_v1
  let main_c : IVec S_ 1 := constantI S_ 1 1#1
  let main_v3 : IVec S_ 1 := (fun x v => Host.reduce IntOp.andi x v reducesTo_S1x4096_S_d0_1 h_S_) main_v2 main_c
  let main_v4 : FVec F S1x6 .f32 := Host.absf main_arg2
  let main_cst_0 : FVec F S_ .f32 := constant S_ .f32 0x7F800000#32
  let main_v5 : FVec F S1x6 .f32 := broadcastInDim S1x6 ![] bcast_S_S1x6 main_cst_0
  let main_v6 : IVec S1x6 1 := cmpf .olt main_v4 main_v5
  let main_c_1 : IVec S_ 1 := constantI S_ 1 1#1
  let main_v7 : IVec S_ 1 := (fun x v => Host.reduce IntOp.andi x v reducesTo_S1x6_S_d0_1 h_S_) main_v6 main_c_1
  let main_v8 : IVec S_ 1 := andi main_v3 main_v7
  let main_v9 : FVec F S32000x1024 .f32 := Host.absf main_arg3
  let main_cst_2 : FVec F S_ .f32 := constant S_ .f32 0x7F800000#32
  let main_v10 : FVec F S32000x1024 .f32 := broadcastInDim S32000x1024 ![] bcast_S_S32000x1024 main_cst_2
  let main_v11 : IVec S32000x1024 1 := cmpf .olt main_v9 main_v10
  let main_c_3 : IVec S_ 1 := constantI S_ 1 1#1
  let main_v12 : IVec S_ 1 := (fun x v => Host.reduce IntOp.andi x v reducesTo_S32000x1024_S_d0_1 h_S_) main_v11 main_c_3
  let main_v13 : IVec S_ 1 := andi main_v8 main_v12
  let main_v14 : FVec F S12288x1030 .f32 := Host.absf main_arg4
  let main_cst_4 : FVec F S_ .f32 := constant S_ .f32 0x7F800000#32
  let main_v15 : FVec F S12288x1030 .f32 := broadcastInDim S12288x1030 ![] bcast_S_S12288x1030 main_cst_4
  let main_v16 : IVec S12288x1030 1 := cmpf .olt main_v14 main_v15
  fn_part1 (F := F) main_arg0 main_arg5 main_arg6 main_arg7 main_v13 main_v16
-- ==== Kernel.lean ====
abbrev S1 : Shape := ⟨1, ![1]⟩
abbrev S1x4096 : Shape := ⟨2, ![1, 4096]⟩
abbrev S1x6 : Shape := ⟨2, ![1, 6]⟩
abbrev S32000x1024 : Shape := ⟨2, ![32000, 1024]⟩
abbrev S12288x1030 : Shape := ⟨2, ![12288, 1030]⟩
abbrev S12288 : Shape := ⟨1, ![12288]⟩
abbrev S12288x4096 : Shape := ⟨2, ![12288, 4096]⟩
abbrev S_ : Shape := ⟨0, ![]⟩
abbrev S1x1 : Shape := ⟨2, ![1, 1]⟩
abbrev S1x1024 : Shape := ⟨2, ![1, 1024]⟩
abbrev S3x4096x1030 : Shape := ⟨3, ![3, 4096, 1030]⟩
abbrev S3x4096x4096 : Shape := ⟨3, ![3, 4096, 4096]⟩
abbrev S3x4096 : Shape := ⟨2, ![3, 4096]⟩
abbrev S1x256 : Shape := ⟨2, ![1, 256]⟩
abbrev S3x256x1030 : Shape := ⟨3, ![3, 256, 1030]⟩
abbrev S3x256 : Shape := ⟨2, ![3, 256]⟩
abbrev S3x256x4096 : Shape := ⟨3, ![3, 256, 4096]⟩
abbrev S1x1030 : Shape := ⟨2, ![1, 1030]⟩
abbrev S1x256x1030 : Shape := ⟨3, ![1, 256, 1030]⟩
abbrev S256x1030 : Shape := ⟨2, ![256, 1030]⟩
abbrev S1x256x4096 : Shape := ⟨3, ![1, 256, 4096]⟩
abbrev S256x4096 : Shape := ⟨2, ![256, 4096]⟩

abbrev nBuf : Space → Nat
  | .hbm => 30
  | .vmem => 15
  | .smem => 0
  | _ => 0

abbrev bufTy : (tb : Table) → Fin (tcTables nBuf tb) → BufTy
  | .hbm, ⟨0, _⟩ => ⟨S1, .i32⟩
  | .hbm, ⟨1, _⟩ => ⟨S1x4096, .f32⟩
  | .hbm, ⟨2, _⟩ => ⟨S1x6, .f32⟩
  | .hbm, ⟨3, _⟩ => ⟨S32000x1024, .f32⟩
  | .hbm, ⟨4, _⟩ => ⟨S12288x1030, .f32⟩
  | .hbm, ⟨5, _⟩ => ⟨S12288, .f32⟩
  | .hbm, ⟨6, _⟩ => ⟨S12288x4096, .f32⟩
  | .hbm, ⟨7, _⟩ => ⟨S12288, .f32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S1, .i32⟩
  | .hbm, ⟨12, _⟩ => ⟨S1, .i32⟩
  | .hbm, ⟨13, _⟩ => ⟨S_, .i32⟩
  | .hbm, ⟨14, _⟩ => ⟨S1, .i32⟩
  | .hbm, ⟨15, _⟩ => ⟨S1, .i32⟩
  | .hbm, ⟨16, _⟩ => ⟨S_, .i32⟩
  | .hbm, ⟨17, _⟩ => ⟨S1, .i32⟩
  | .hbm, ⟨18, _⟩ => ⟨S1, .i1⟩
  | .hbm, ⟨19, _⟩ => ⟨S_, .i32⟩
  | .hbm, ⟨20, _⟩ => ⟨S1, .i32⟩
  | .hbm, ⟨21, _⟩ => ⟨S1, .i32⟩
  | .hbm, ⟨22, _⟩ => ⟨S1, .i32⟩
  | .hbm, ⟨23, _⟩ => ⟨S1x1, .i32⟩
  | .hbm, ⟨24, _⟩ => ⟨S1x1024, .f32⟩
  | .hbm, ⟨25, _⟩ => ⟨S3x4096x1030, .f32⟩
  | .hbm, ⟨26, _⟩ => ⟨S3x4096x4096, .f32⟩
  | .hbm, ⟨27, _⟩ => ⟨S3x4096, .f32⟩
  | .hbm, ⟨28, _⟩ => ⟨S3x4096, .f32⟩
  | .hbm, ⟨29, _⟩ => ⟨S1x4096, .f32⟩
  | .local _ .vmem, ⟨0, _⟩ => ⟨S1x1024, .f32⟩
  | .local _ .vmem, ⟨1, _⟩ => ⟨S1x6, .f32⟩
  | .local _ .vmem, ⟨2, _⟩ => ⟨S1x4096, .f32⟩
  | .local _ .vmem, ⟨3, _⟩ => ⟨S1x256, .f32⟩
  | .local _ .vmem, ⟨4, _⟩ => ⟨S1x256, .f32⟩
  | .local _ .vmem, ⟨5, _⟩ => ⟨S3x256x1030, .f32⟩
  | .local _ .vmem, ⟨6, _⟩ => ⟨S3x256x1030, .f32⟩
  | .local _ .vmem, ⟨7, _⟩ => ⟨S3x256, .f32⟩
  | .local _ .vmem, ⟨8, _⟩ => ⟨S3x256, .f32⟩
  | .local _ .vmem, ⟨9, _⟩ => ⟨S3x256x4096, .f32⟩
  | .local _ .vmem, ⟨10, _⟩ => ⟨S3x256x4096, .f32⟩
  | .local _ .vmem, ⟨11, _⟩ => ⟨S3x256, .f32⟩
  | .local _ .vmem, ⟨12, _⟩ => ⟨S3x256, .f32⟩
  | .local _ .vmem, ⟨13, _⟩ => ⟨S1x256, .f32⟩
  | .local _ .vmem, ⟨14, _⟩ => ⟨S1x256, .f32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v0 : Ref sig .tc := ⟨.hbm, 15, rfl⟩
abbrev main_c_1 : Ref sig .tc := ⟨.hbm, 16, rfl⟩
abbrev main_v1 : Ref sig .tc := ⟨.hbm, 17, rfl⟩
abbrev main_v2 : Ref sig .tc := ⟨.hbm, 18, rfl⟩
abbrev main_c_2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x6 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x256x1030 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3x256x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S3x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S_S1 : S_.BroadcastsInDim S1 (![] : Fin 0 → Fin S1.rank)
  bcast_S1_S1x1_0 : S1.BroadcastsInDim S1x1 (![0] : Fin 1 → Fin S1x1.rank)
  shapeCasts_S12288x1030_S3x4096x1030 : S12288x1030.ShapeCasts S3x4096x1030
  shapeCasts_S12288x4096_S3x4096x4096 : S12288x4096.ShapeCasts S3x4096x4096
  shapeCasts_S12288_S3x4096 : S12288.ShapeCasts S3x4096
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1x6_S1x6_0_0 : ∀ a, (![0, 0] : Fin 2 → Nat) a + S1x6.size a ≤ S1x6.size a
  h_S1x6 : 0 < S1x6.numel
  concatenates_S1x1024_S1x6_S1x1030_d1 : Shape.Concatenates [S1x1024, S1x6] S1x1030 1
  bitsLt_bf16_f32 : FTy.bits .bf16 < FTy.bits .f32
  inb_S1x4096_S1x4096_0_0 : ∀ a, (![0, 0] : Fin 2 → Nat) a + S1x4096.size a ≤ S1x4096.size a
  h_S1x4096 : 0 < S1x4096.numel
  inb_S1x256_S1x256_0_0 : ∀ a, (![0, 0] : Fin 2 → Nat) a + S1x256.size a ≤ S1x256.size a
  h_S1x256 : 0 < S1x256.numel
  inb_S3x256_S3x256_0_0 : ∀ a, (![0, 0] : Fin 2 → Nat) a + S3x256.size a ≤ S3x256.size a
  h_S3x256 : 0 < S3x256.numel
  shapeCasts_S3x256_S3x256 : S3x256.ShapeCasts S3x256
  inb_S3x256x1030_S1x256x1030_0_0_0 : ∀ a, (![0, 0, 0] : Fin 3 → Nat) a + S1x256x1030.size a ≤ S3x256x1030.size a
  h_S1x256x1030 : 0 < S1x256x1030.numel
  shapeCasts_S1x256x1030_S256x1030 : S1x256x1030.ShapeCasts S256x1030
  slices_S3x256_o0_0_S1x256 : S3x256.Slices ![0, 0] S1x256
  inb_S3x256x1030_S1x256x1030_1_0_0 : ∀ a, (![1, 0, 0] : Fin 3 → Nat) a + S1x256x1030.size a ≤ S3x256x1030.size a
  slices_S3x256_o1_0_S1x256 : S3x256.Slices ![1, 0] S1x256
  inb_S3x256x1030_S1x256x1030_2_0_0 : ∀ a, (![2, 0, 0] : Fin 3 → Nat) a + S1x256x1030.size a ≤ S3x256x1030.size a
  slices_S3x256_o2_0_S1x256 : S3x256.Slices ![2, 0] S1x256
  inb_S3x256x4096_S1x256x4096_0_0_0 : ∀ a, (![0, 0, 0] : Fin 3 → Nat) a + S1x256x4096.size a ≤ S3x256x4096.size a
  h_S1x256x4096 : 0 < S1x256x4096.numel
  shapeCasts_S1x256x4096_S256x4096 : S1x256x4096.ShapeCasts S256x4096
  inb_S3x256x4096_S1x256x4096_1_0_0 : ∀ a, (![1, 0, 0] : Fin 3 → Nat) a + S1x256x4096.size a ≤ S3x256x4096.size a
  inb_S3x256x4096_S1x256x4096_2_0_0 : ∀ a, (![2, 0, 0] : Fin 3 → Nat) a + S1x256x4096.size a ≤ S3x256x4096.size a
  gather_S32000x1024_S1x1_S1x1024_1_0_n_n_0_1_11024_wf : GatherDims.WF S32000x1024 S1x1 S1x1024 [1] [0] [] [0] [] 1 ![1, 1024]
  dot_S1x1030_S256x1030_S1x256_1_1_0_0_n_n_wf : DotDims.WF S1x1030 S256x1030 S1x256 [1] [1] [0] [0] [] []
  dot_S1x4096_S256x4096_S1x256_1_1_0_0_n_n_wf : DotDims.WF S1x4096 S256x4096 S1x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1024.size a ≤ S1x1024.size a
  hwx0_0 : ∀ i : grid0.Coords, EltTy.bits .f32 = 32 ∨ (Rect.block (s := S1x1024) S1x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x6.size a ≤ S1x6.size a
  hwx0_1 : ∀ i : grid0.Coords, EltTy.bits .f32 = 32 ∨ (Rect.block (s := S1x6) S1x6.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x4096.size a
  hwx0_3 : ∀ i : grid0.Coords, EltTy.bits .f32 = 32 ∨ (Rect.block (s := S1x4096) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S3x256x1030.size a ≤ S3x4096x1030.size a
  hwx0_4 : ∀ i : grid0.Coords, EltTy.bits .f32 = 32 ∨ (Rect.block (s := S3x4096x1030) S3x256x1030.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S3x256.size a ≤ S3x4096.size a
  hwx0_5 : ∀ i : grid0.Coords, EltTy.bits .f32 = 32 ∨ (Rect.block (s := S3x4096) S3x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S3x256x4096.size a ≤ S3x4096x4096.size a
  hwx0_6 : ∀ i : grid0.Coords, EltTy.bits .f32 = 32 ∨ (Rect.block (s := S3x4096x4096) S3x256x4096.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S3x256.size a ≤ S3x4096.size a
  hwx0_7 : ∀ i : grid0.Coords, EltTy.bits .f32 = 32 ∨ (Rect.block (s := S3x4096) S3x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x4096.size a
  hwx0_8 : ∀ i : grid0.Coords, EltTy.bits .f32 = 32 ∨ (Rect.block (s := S1x4096) S1x256.size (cc0_transform_8 i) (hinb0_8 i)).WholeWords (EltTy.packing .f32)

variable [Facts₀]

def gather_S32000x1024_S1x1_S1x1024_1_0_n_n_0_1_11024 : GatherDims S32000x1024 S1x1 S1x1024 where
  offsetDims := [1]
  collapsedSliceDims := [0]
  operandBatchingDims := []
  startIndicesBatchingDims := []
  startIndexMap := [0]
  indexVectorDim := 1
  sliceSizes := ![1, 1024]
  wf := gather_S32000x1024_S1x1_S1x1024_1_0_n_n_0_1_11024_wf
def dot_S1x1030_S256x1030_S1x256_1_1_0_0_n_n : DotDims S1x1030 S256x1030 S1x256 where
  lhsContracting := [1]
  rhsContracting := [1]
  lhsNonContracting := [0]
  rhsNonContracting := [0]
  lhsBatch := []
  rhsBatch := []
  wf := dot_S1x1030_S256x1030_S1x256_1_1_0_0_n_n_wf
def dot_S1x4096_S256x4096_S1x256_1_1_0_0_n_n : DotDims S1x4096 S256x4096 S1x256 where
  lhsContracting := [1]
  rhsContracting := [1]
  lhsNonContracting := [0]
  rhsNonContracting := [0]
  lhsBatch := []
  rhsBatch := []
  wf := dot_S1x4096_S256x4096_S1x256_1_1_0_0_n_n_wf

abbrev win0_0 : Pipeline.Window sig grid0 :=
  Pipeline.Window.ofSpec (Memref.whole main_v7) S1x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x6.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S3x256x1030.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10) S3x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v9) S3x256x4096.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v11) S3x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v12) S1x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S1 : Shape := ⟨1, ![1]⟩
abbrev S1x4096 : Shape := ⟨2, ![1, 4096]⟩
abbrev S1x6 : Shape := ⟨2, ![1, 6]⟩
abbrev S32000x1024 : Shape := ⟨2, ![32000, 1024]⟩
abbrev S12288x1030 : Shape := ⟨2, ![12288, 1030]⟩
abbrev S12288 : Shape := ⟨1, ![12288]⟩
abbrev S12288x4096 : Shape := ⟨2, ![12288, 4096]⟩
abbrev S_ : Shape := ⟨0, ![]⟩
abbrev S1x1 : Shape := ⟨2, ![1, 1]⟩
abbrev S1x1024 : Shape := ⟨2, ![1, 1024]⟩
abbrev S1x1030 : Shape := ⟨2, ![1, 1030]⟩
abbrev S1030x12288 : Shape := ⟨2, ![1030, 12288]⟩
abbrev S1x12288 : Shape := ⟨2, ![1, 12288]⟩
abbrev S4096x12288 : Shape := ⟨2, ![4096, 12288]⟩

abbrev nBuf : Space → Nat
  | .hbm => 59
  | .vmem => 0
  | .smem => 0
  | _ => 0

abbrev bufTy : (tb : Table) → Fin (tcTables nBuf tb) → BufTy
  | .hbm, ⟨0, _⟩ => ⟨S1, .i32⟩
  | .hbm, ⟨1, _⟩ => ⟨S1x4096, .f32⟩
  | .hbm, ⟨2, _⟩ => ⟨S1x6, .f32⟩
  | .hbm, ⟨3, _⟩ => ⟨S32000x1024, .f32⟩
  | .hbm, ⟨4, _⟩ => ⟨S12288x1030, .f32⟩
  | .hbm, ⟨5, _⟩ => ⟨S12288, .f32⟩
  | .hbm, ⟨6, _⟩ => ⟨S12288x4096, .f32⟩
  | .hbm, ⟨7, _⟩ => ⟨S12288, .f32⟩
  | .hbm, ⟨8, _⟩ => ⟨S_, .i32⟩
  | .hbm, ⟨9, _⟩ => ⟨S1, .i32⟩
  | .hbm, ⟨10, _⟩ => ⟨S1, .i1⟩
  | .hbm, ⟨11, _⟩ => ⟨S_, .i32⟩
  | .hbm, ⟨12, _⟩ => ⟨S1, .i32⟩
  | .hbm, ⟨13, _⟩ => ⟨S1, .i32⟩
  | .hbm, ⟨14, _⟩ => ⟨S1, .i32⟩
  | .hbm, ⟨15, _⟩ => ⟨S1x1, .i32⟩
  | .hbm, ⟨16, _⟩ => ⟨S1x1024, .f32⟩
  | .hbm, ⟨17, _⟩ => ⟨S1x1030, .f32⟩
  | .hbm, ⟨18, _⟩ => ⟨S1030x12288, .f32⟩
  | .hbm, ⟨19, _⟩ => ⟨S1x12288, .f32⟩
  | .hbm, ⟨20, _⟩ => ⟨S1x12288, .f32⟩
  | .hbm, ⟨21, _⟩ => ⟨S1x12288, .f32⟩
  | .hbm, ⟨22, _⟩ => ⟨S4096x12288, .f32⟩
  | .hbm, ⟨23, _⟩ => ⟨S1x12288, .f32⟩
  | .hbm, ⟨24, _⟩ => ⟨S1x12288, .f32⟩
  | .hbm, ⟨25, _⟩ => ⟨S1x12288, .f32⟩
  | .hbm, ⟨26, _⟩ => ⟨S1x4096, .f32⟩
  | .hbm, ⟨27, _⟩ => ⟨S1x4096, .f32⟩
  | .hbm, ⟨28, _⟩ => ⟨S1x4096, .f32⟩
  | .hbm, ⟨29, _⟩ => ⟨S1x4096, .f32⟩
  | .hbm, ⟨30, _⟩ => ⟨S1x4096, .f32⟩
  | .hbm, ⟨31, _⟩ => ⟨S1x4096, .f32⟩
  | .hbm, ⟨32, _⟩ => ⟨S1x4096, .f32⟩
  | .hbm, ⟨33, _⟩ => ⟨S1x4096, .f32⟩
  | .hbm, ⟨34, _⟩ => ⟨S1x4096, .f32⟩
  | .hbm, ⟨35, _⟩ => ⟨S_, .f32⟩
  | .hbm, ⟨36, _⟩ => ⟨S1x4096, .f32⟩
  | .hbm, ⟨37, _⟩ => ⟨S1x4096, .f32⟩
  | .hbm, ⟨38, _⟩ => ⟨S_, .f32⟩
  | .hbm, ⟨39, _⟩ => ⟨S1x4096, .f32⟩
  | .hbm, ⟨40, _⟩ => ⟨S1x4096, .f32⟩
  | .hbm, ⟨41, _⟩ => ⟨S1x4096, .f32⟩
  | .hbm, ⟨42, _⟩ => ⟨S1x4096, .f32⟩
  | .hbm, ⟨43, _⟩ => ⟨S1x4096, .f32⟩
  | .hbm, ⟨44, _⟩ => ⟨S_, .f32⟩
  | .hbm, ⟨45, _⟩ => ⟨S1x4096, .f32⟩
  | .hbm, ⟨46, _⟩ => ⟨S1x4096, .f32⟩
  | .hbm, ⟨47, _⟩ => ⟨S_, .f32⟩
  | .hbm, ⟨48, _⟩ => ⟨S1x4096, .f32⟩
  | .hbm, ⟨49, _⟩ => ⟨S1x4096, .f32⟩
  | .hbm, ⟨50, _⟩ => ⟨S1x4096, .f32⟩
  | .hbm, ⟨51, _⟩ => ⟨S1x4096, .f32⟩
  | .hbm, ⟨52, _⟩ => ⟨S1x4096, .f32⟩
  | .hbm, ⟨53, _⟩ => ⟨S_, .f32⟩
  | .hbm, ⟨54, _⟩ => ⟨S1x4096, .f32⟩
  | .hbm, ⟨55, _⟩ => ⟨S1x4096, .f32⟩
  | .hbm, ⟨56, _⟩ => ⟨S1x4096, .f32⟩
  | .hbm, ⟨57, _⟩ => ⟨S1x4096, .f32⟩
  | .hbm, ⟨58, _⟩ => ⟨S1x4096, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst : Ref sig .tc := ⟨.hbm, 35, rfl⟩
abbrev main_v25 : Ref sig .tc := ⟨.hbm, 36, rfl⟩
abbrev main_v26 : Ref sig .tc := ⟨.hbm, 37, rfl⟩
abbrev main_cst_1 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_2 : Ref sig .tc := ⟨.hbm, 44, rfl⟩
abbrev main_v32 : Ref sig .tc := ⟨.hbm, 45, rfl⟩
abbrev main_v33 : Ref sig .tc := ⟨.hbm, 46, rfl⟩
abbrev main_cst_3 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_4 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]

class Facts₀ : Prop where
  bcast_S_S1 : S_.BroadcastsInDim S1 (![] : Fin 0 → Fin S1.rank)
  bcast_S1_S1x1_0 : S1.BroadcastsInDim S1x1 (![0] : Fin 1 → Fin S1x1.rank)
  concatenates_S1x1024_S1x6_S1x1030_d1 : Shape.Concatenates [S1x1024, S1x6] S1x1030 1
  transposes_S12288x1030_S1030x12288_1_0 : S12288x1030.Transposes [1, 0] S1030x12288
  bcast_S12288_S1x12288_1 : S12288.BroadcastsInDim S1x12288 (![1] : Fin 1 → Fin S1x12288.rank)
  transposes_S12288x4096_S4096x12288_1_0 : S12288x4096.Transposes [1, 0] S4096x12288
  slices_S1x12288_S1x4096_0_0 : S1x12288.Slices ![0, 0] S1x4096
  slices_S1x12288_S1x4096_0_4096 : S1x12288.Slices ![0, 4096] S1x4096
  slices_S1x12288_S1x4096_0_8192 : S1x12288.Slices ![0, 8192] S1x4096
  bcast_S_S1x4096 : S_.BroadcastsInDim S1x4096 (![] : Fin 0 → Fin S1x4096.rank)
  gather_S32000x1024_S1x1_S1x1024_1_0_n_n_0_1_11024_wf : GatherDims.WF S32000x1024 S1x1 S1x1024 [1] [0] [] [0] [] 1 ![1, 1024]
  dot_S1x1030_S1030x12288_S1x12288_1_0_0_1_n_n_wf : DotDims.WF S1x1030 S1030x12288 S1x12288 [1] [0] [0] [1] [] []
  dot_S1x4096_S4096x12288_S1x12288_1_0_0_1_n_n_wf : DotDims.WF S1x4096 S4096x12288 S1x12288 [1] [0] [0] [1] [] []

variable [Facts₀]

def gather_S32000x1024_S1x1_S1x1024_1_0_n_n_0_1_11024 : GatherDims S32000x1024 S1x1 S1x1024 where
  offsetDims := [1]
  collapsedSliceDims := [0]
  operandBatchingDims := []
  startIndicesBatchingDims := []
  startIndexMap := [0]
  indexVectorDim := 1
  sliceSizes := ![1, 1024]
  wf := gather_S32000x1024_S1x1_S1x1024_1_0_n_n_0_1_11024_wf
def dot_S1x1030_S1030x12288_S1x12288_1_0_0_1_n_n : DotDims S1x1030 S1030x12288 S1x12288 where
  lhsContracting := [1]
  rhsContracting := [0]
  lhsNonContracting := [0]
  rhsNonContracting := [1]
  lhsBatch := []
  rhsBatch := []
  wf := dot_S1x1030_S1030x12288_S1x12288_1_0_0_1_n_n_wf
def dot_S1x4096_S4096x12288_S1x12288_1_0_0_1_n_n : DotDims S1x4096 S4096x12288 S1x12288 where
  lhsContracting := [1]
  rhsContracting := [0]
  lhsNonContracting := [0]
  rhsNonContracting := [1]
  lhsBatch := []
  rhsBatch := []
  wf := dot_S1x4096_S4096x12288_S1x12288_1_0_0_1_n_n_wf

class Facts : Prop extends Facts₀ where

variable [Facts]
-- ==== Proof.TileK.lean ====
/-
  One tile of the recurrent-cell kernel: the row of 256 new hidden values the body stores at a grid point, as ONE
  function of the eight staged blocks it reads — the gathered embedding row (1 × 1024), the goal encoding (1 × 6),
  the whole previous hidden row (1 × 4096), this tile's 256 entries of it, this tile's three 256 × 1030 slabs of the
  input weights with their 3 × 256 biases, and this tile's three 256 × 4096 slabs of the hidden weights with their
  3 × 256 biases — and what the output buffer holds after the one store, which covers it.
-/
import proofs.«409868_j40724879901195_3_alg».proof.Proof.Gen.Kernel.Launch
import proofs.«409868_j40724879901195_3_alg».proof.Proof.Gen.Kernel.Skeleton
import proofs.«409868_j40724879901195_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The rectangles the body reads and writes: each buffer whole, but the weights one gate's slab at a time -/

abbrev rX : Rect S1x1024 := Rect.unit (s := S1x1024) ![0, 0] S1x1024.size inb_S1x1024_S1x1024_0_0
abbrev rG : Rect S1x6 := Rect.unit (s := S1x6) ![0, 0] S1x6.size inb_S1x6_S1x6_0_0
abbrev rP : Rect S1x4096 := Rect.unit (s := S1x4096) ![0, 0] S1x4096.size inb_S1x4096_S1x4096_0_0
abbrev rT : Rect S1x256 := Rect.unit (s := S1x256) ![0, 0] S1x256.size inb_S1x256_S1x256_0_0
abbrev rB : Rect S3x256 := Rect.unit (s := S3x256) ![0, 0] S3x256.size inb_S3x256_S3x256_0_0
abbrev rI0 : Rect S3x256x1030 := Rect.unit (s := S3x256x1030) ![0, 0, 0] S1x256x1030.size inb_S3x256x1030_S1x256x1030_0_0_0
abbrev rI1 : Rect S3x256x1030 := Rect.unit (s := S3x256x1030) ![1, 0, 0] S1x256x1030.size inb_S3x256x1030_S1x256x1030_1_0_0
abbrev rI2 : Rect S3x256x1030 := Rect.unit (s := S3x256x1030) ![2, 0, 0] S1x256x1030.size inb_S3x256x1030_S1x256x1030_2_0_0
abbrev rH0 : Rect S3x256x4096 := Rect.unit (s := S3x256x4096) ![0, 0, 0] S1x256x4096.size inb_S3x256x4096_S1x256x4096_0_0_0
abbrev rH1 : Rect S3x256x4096 := Rect.unit (s := S3x256x4096) ![1, 0, 0] S1x256x4096.size inb_S3x256x4096_S1x256x4096_1_0_0
abbrev rH2 : Rect S3x256x4096 := Rect.unit (s := S3x256x4096) ![2, 0, 0] S1x256x4096.size inb_S3x256x4096_S1x256x4096_2_0_0

/-! ## The stored row -/

/-- The row of 256 new hidden values the body stores, from the eight blocks it reads. -/
def tile (x0 : Vec F S1x1024 .f32) (x1 : Vec F S1x6 .f32) (x2 : Vec F S1x4096 .f32) (x3 : Vec F S1x256 .f32)
    (x4 : Vec F S3x256x1030 .f32) (x5 : Vec F S3x256 .f32) (x6 : Vec F S3x256x4096 .f32) (x7 : Vec F S3x256 .f32) :
    Vec F S1x256 .f32 :=
  k0_pay1 (k0_pay3 (View.ld x2 rP)) (View.ld x3 rT) (k0_pay5 (View.ld x7 rB))
    (k0_pay6 (View.ld x0 rX) (View.ld x1 rG) (View.ld x5 rB) (View.ld x4 rI0))
    (k0_pay7 (View.ld x0 rX) (View.ld x1 rG) (View.ld x5 rB) (View.ld x4 rI1))
    (k0_pay8 (View.ld x0 rX) (View.ld x1 rG) (View.ld x5 rB) (View.ld x4 rI2))
    (k0_pay9 (View.ld x6 rH0)) (View.ld x6 rH1) (View.ld x6 rH2)

/-- What the output buffer holds after the body: its one store, over the whole buffer. -/
def out8 (x0 : Vec F S1x1024 .f32) (x1 : Vec F S1x6 .f32) (x2 : Vec F S1x4096 .f32) (x3 : Vec F S1x256 .f32)
    (x4 : Vec F S3x256x1030 .f32) (x5 : Vec F S3x256 .f32) (x6 : Vec F S3x256x4096 .f32) (x7 : Vec F S3x256 .f32) :
    Vec F S1x256 .f32 :=
  View.canon [⟨rT, tile x0 x1 x2 x3 x4 x5 x6 x7⟩]

/-- The one store covers the output buffer. -/
theorem cover8 (p0 : Vec F S1x256 .f32) (y : S1x256.Idx) :
    ∃ pc ∈ ([⟨rT, p0⟩] : List (View.Piece (Elt F) S1x256 .f32)), y ∈ pc.1.set :=
  View.cover_of_tiled [⟨rT, p0⟩] S1x256.size (by rfl) y

end Cert.Kernel.Hand

end
-- ==== Proof.BodyK.lean ====
/-
  The body of the recurrent-cell kernel at one grid point, as a triple: on whole staging buffers, the eight inputs at
  any read contents and the output at anything, it runs without fault, hands the eight inputs back as it found them
  and leaves the output buffer at the one row it stores (the tile module's `out8` of the eight blocks).
-/
import proofs.«409868_j40724879901195_3_alg».proof.Proof.TileK
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's triple -/

set_option maxHeartbeats 4000000 in
/-- On whole staging memrefs, the inputs' at read contents `x0 … x7` and the output's at anything, the body runs to
    the continuation holding the inputs' as they were and the output's at `out8` of them. -/
theorem sound_kernel (c : Dev nD) (E : Set ℕ) (i : grid0.Coords)
    (arg1 : Memref sig .tc .vmem S1x1024 .f32) (harg1 : arg1.IsWhole) (arg2 : Memref sig .tc .vmem S1x6 .f32) (harg2 : arg2.IsWhole)
    (arg3 : Memref sig .tc .vmem S1x4096 .f32) (harg3 : arg3.IsWhole) (arg4 : Memref sig .tc .vmem S1x256 .f32) (harg4 : arg4.IsWhole)
    (arg5 : Memref sig .tc .vmem S3x256x1030 .f32) (harg5 : arg5.IsWhole) (arg6 : Memref sig .tc .vmem S3x256 .f32) (harg6 : arg6.IsWhole)
    (arg7 : Memref sig .tc .vmem S3x256x4096 .f32) (harg7 : arg7.IsWhole) (arg8 : Memref sig .tc .vmem S3x256 .f32) (harg8 : arg8.IsWhole)
    (arg9 : Memref sig .tc .vmem S1x256 .f32) (harg9 : arg9.IsWhole)
    (x0 : Vec F S1x1024 .f32) (x1 : Vec F S1x6 .f32) (x2 : Vec F S1x4096 .f32) (x3 : Vec F S1x256 .f32)
    (x4 : Vec F S3x256x1030 .f32) (x5 : Vec F S3x256 .f32) (x6 : Vec F S3x256x4096 .f32) (x7 : Vec F S3x256 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (out8 x0 x1 x2 x3 x4 x5 x6 x7)) -∗ K ⟨⟩))
      ⊢ wp frame (wpE (defs₀ (F := F)) Variants.none c none) E
          (cc0__gru_kernel i arg1 harg1 arg2 harg2 arg3 harg3 arg4 harg4 arg5 harg5 arg6 harg6 arg7 harg7 arg8 harg8 arg9 harg9) K := by
  simp only [cc0__gru_kernel_eq_skeleton]; unfold cc0__gru_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover8 _)

end Cert.Kernel.Hand

end
-- ==== Proof.LibSharedLaunch.lean ====
/-
  A pipelined kernel region whose INPUT windows may stage one array several times over (two `in_specs` reading one
  operand at different blocks), inside an @main that runs host lines before the region and more host lines after it.

  With distinct arrays the region holds each array whole.  Here the certificate says how ownership of the buffers
  behind the arrays is dealt among the windows when the region is entered (`hsplit`: an array read through two windows
  is split in two fractions, one per window) and how the windows' holdings are put back together when it is left
  (`hjoin`).  Everything else is as for distinct arrays: the host lines before the region run on all unscoped buffers
  and leave them at `V₀`; the region's body obligation is met at every grid point; the lines after the region run on
  all unscoped buffers again, from the contents the region leaves (`Wx`: each array at what the write-backs made of it,
  every other buffer as the region found it), and may write no array.  The conclusion reads every array and every
  other unscoped buffer in the final state.
-/
import Idealize.ShloMosaic.Lib.Pipeline.FrameSuffix

noncomputable section

namespace Idealize.ShloMosaic

open Idealize.SL
open Idealize.SL.BI (sProp bigSep bigSep_map bigSep_union bigSep_congr)
open scoped Idealize.SL.BI
open Idealize.SL.BI.BIBase Idealize.SL.BI.Laws Idealize.SL.Sem Idealize.SL.ProofMode
open Idealize.SL.RA
open TcCoe

variable {nD : Nat} {τ : Topo} {sig : RefSig} {Val : EltTy → Type}

namespace Pipeline

open Idealize.ShloMosaic.Rounds

section SharedAround

variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝔻" => Pipeline.defs (fun q => Cfg.toPCfg (Val := Val) (cfgs q)) defs₀

/-- The post of the run below: each window's array at what the library computes from the proof data, every unscoped
    buffer that is no window's array at the contents the lines after the region leave. -/
def SharedPost (Wx : Dev nD → Valuation τ sig Val) (opss : List (List (HloOp τ sig Val)))
    (r : PUnit × MemSt nD τ sig Val) : Prop :=
  ∀ c : Dev nD, (∀ w, r.2.mem (((cfg).spec w).arr.view.loc (c.tc : Thread nD τ)) = (dats p c).arrAt w (cfg).N)
    ∧ ∀ b ∈ restRefs sig (cfg).spec, r.2.mem ((c.tc : Thread nD τ).loc b) = StableHlo.after opss.flatten (Wx c) (Proc.devRef .tc b)

local notation "𝕍" => Variants.lift 𝒱₀

/-- THE LINES AFTER THE REGION when windows may share arrays: the windows' holdings are joined into the distinct
    buffers behind the arrays (`hjoin`), which with the bypassing buffers are all the unscoped buffers, at the contents
    `Wx` the region leaves; the lines run within them and write no array (`hkeep`), so dealing the buffers out again
    (`hsplit`) at the contents after the lines gives the arrays back as the region left them. -/
theorem tail_seqs_shared (c : Dev nD) (hw : WinFacts₀ (cfg).spec)
    (V₀ : Valuation τ sig Val) (opss : List (List (HloOp τ sig Val)))
    (hsub : ∀ ops ∈ opss, ∀ op ∈ ops, op.bufs ⊆ StableHlo.tcRefs τ sig)
    (hfresh : ∀ ops ∈ opss, ∀ op ∈ ops, op.fresh = ∅)
    (hkeep : ∀ ops ∈ opss, ∀ op ∈ ops, ∀ w, Proc.devRef .tc (arrRef (cfg).spec w) ∉ op.writes)
    (hsplit : ∀ (W : Valuation τ sig Val)
        (F : (w : Fin (cfg).W) → Buf Val (((cfg).spec w).arr.view.loc (c.tc : Thread nD τ))),
        (∀ w, F w = W (Proc.devRef .tc (arrRef (cfg).spec w))) →
        (arrBufs (cfg).spec c (fun b => W (Proc.devRef .tc b)) : sProp 𝕄) ⊢ (dats p c).arrays F)
    (hjoin : ∀ (W : Valuation τ sig Val)
        (F : (w : Fin (cfg).W) → Buf Val (((cfg).spec w).arr.view.loc (c.tc : Thread nD τ))),
        (∀ w, F w = W (Proc.devRef .tc (arrRef (cfg).spec w))) →
        (dats p c).arrays F ⊢ (arrBufs (cfg).spec c (fun b => W (Proc.devRef .tc b)) : sProp 𝕄))
    (Wx : Valuation τ sig Val)
    (hWx : ∀ w, Wx (Proc.devRef .tc (arrRef (cfg).spec w)) = (dats p c).arrAt w (cfg).N)
    (hWx' : ∀ b : Ref sig .tc, (∀ w, arrRef (cfg).spec w ≠ b) → Wx (Proc.devRef .tc b) = V₀ (Proc.devRef .tc b))
    (Q' : PUnit → sProp 𝕄) :
    iprop((iprop((dats p c).arrays ((dats p c).arrAt · (cfg).N)
              ∗ unscopedRestP Prefetch.none (cfg).spec c (fun b => StableHlo.after opss.flatten Wx (Proc.devRef .tc b))) -∗ Q' ⟨⟩)
        ∗ boundary (c.tc : Thread nD τ) ∗ (dats p c).arrays ((dats p c).arrAt · (cfg).N)
        ∗ unscopedRestP Prefetch.none (cfg).spec c (fun b => V₀ (Proc.devRef .tc b)))
      ⊢ wp frame (wpE 𝔻 𝕍 (c.tc : Thread nD τ) none) Set.univ (chain (opss.map StableHlo.seq)) Q' := by
  classical
  -- all the unscoped buffers at a valuation: the distinct buffers behind the arrays, and the rest
  have hheld : ∀ W : Valuation τ sig Val,
      (StableHlo.held (c.tc : Thread nD τ) (ucRefs τ sig) W : sProp 𝕄)
        = iprop(arrBufs (cfg).spec c (fun b => W (Proc.devRef .tc b)) ∗ unscopedRest (cfg).spec c (fun b => W (Proc.devRef .tc b))) := fun W => by
    rw [← unscopedBufs_held (Ix := Unit) (Name := ℕ) (U := UR sig nD τ) (Lvl := ℕ) c W]
    exact unscopedBufs_split₀ cfgs p hw.arr_unscoped c (fun b => W (Proc.devRef .tc b))
  -- a buffer that is no window's array is at the region's exit as at its entry
  have hZ : (unscopedRestP Prefetch.none (cfg).spec c (fun b => V₀ (Proc.devRef .tc b)) : sProp 𝕄)
      = unscopedRest (cfg).spec c (fun b => Wx (Proc.devRef .tc b)) := by
    rw [unscopedRestP_none]
    unfold unscopedRest
    exact bigSep_congr fun b hb => by
      beta_reduce
      rw [hWx' b fun w e => (Finset.mem_sdiff.mp hb).2 (Finset.mem_image.mpr ⟨w, Finset.mem_univ _, e⟩)]
  -- no line writes an array
  have hafter : ∀ w, StableHlo.after opss.flatten Wx (Proc.devRef .tc (arrRef (cfg).spec w)) = (dats p c).arrAt w (cfg).N := fun w => by
    rw [StableHlo.after_of_forall_not_mem _ _ fun op hop => ?_, hWx]
    obtain ⟨ops, hops, hop⟩ := List.mem_flatten.mp hop
    exact hkeep ops hops op hop w
  have hgo : iprop((dats p c).arrays ((dats p c).arrAt · (cfg).N)
        ∗ unscopedRestP Prefetch.none (cfg).spec c (fun b => V₀ (Proc.devRef .tc b)))
      ⊢ (StableHlo.held (c.tc : Thread nD τ) (ucRefs τ sig) Wx : sProp 𝕄) := by
    rw [hheld Wx, hZ]
    exact sep_mono (hjoin Wx _ fun w => (hWx w).symm) .rfl
  have hback : (StableHlo.held (c.tc : Thread nD τ) (ucRefs τ sig) (StableHlo.after opss.flatten Wx) : sProp 𝕄)
      ⊢ iprop((dats p c).arrays ((dats p c).arrAt · (cfg).N)
        ∗ unscopedRestP Prefetch.none (cfg).spec c (fun b => StableHlo.after opss.flatten Wx (Proc.devRef .tc b))) := by
    rw [hheld (StableHlo.after opss.flatten Wx), unscopedRestP_none]
    exact sep_mono (hsplit (StableHlo.after opss.flatten Wx) _ fun w => (hafter w).symm) .rfl
  rw [← List.append_nil (opss.map StableHlo.seq)]
  iintro ⟨Hk, Hb, HA, HZ⟩
  iapply (wp_seqs_then (fun q => (cfgs q).toPCfg (Val := Val)) defs₀ 𝒱₀ c (ucRefs τ sig) [] opss
    (fun ops hops op hop => sub_ucRefs op (hsub ops hops op hop)) hfresh Wx) $$ [Hb HA HZ]
  · isplitl [Hb]; · iexact Hb
    iapply hgo
    isplitl [HA] <;> iassumption
  iintro Hb
  rw [chain_nil, wp_pure]
  imodintro
  iapply Hk
  icases Hb with ⟨-, H⟩
  iapply hback
  iexact H

/-- THE RUN around a region whose windows may share arrays. -/
theorem θ_run_frame_around_shared
    (hcell : Function.Injective (cellOf (nD := nD) (τ := τ) cfgs))
    (hw : WinFacts₀ (cfg).spec)
    (hne : ∀ w : Fin (cfg).W, 0 < ((cfg).spec w).block.numel)
    (harr : ∀ w : Fin (cfg).W, ((cfg).spec w).arr.IsWhole)
    (hstage : ∀ (w : Fin (cfg).W) (s : Fin ((cfg).spec w).nbuf), (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V₀ : Dev nD → Valuation τ sig Val) (opss : List (List (HloOp τ sig Val)))
    (hsub : ∀ ops ∈ opss, ∀ op ∈ ops, op.bufs ⊆ StableHlo.tcRefs τ sig)
    (hfresh : ∀ ops ∈ opss, ∀ op ∈ ops, op.fresh = ∅)
    (hkeep : ∀ ops ∈ opss, ∀ op ∈ ops, ∀ w, Proc.devRef .tc (arrRef (cfg).spec w) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hsplit : ∀ (c : Dev nD) (W : Valuation τ sig Val)
        (F : (w : Fin (cfg).W) → Buf Val (((cfg).spec w).arr.view.loc (c.tc : Thread nD τ))),
        (∀ w, F w = W (Proc.devRef .tc (arrRef (cfg).spec w))) →
        (arrBufs (cfg).spec c (fun b => W (Proc.devRef .tc b)) : sProp 𝕄) ⊢ (dats p c).arrays F)
    (hjoin : ∀ (c : Dev nD) (W : Valuation τ sig Val)
        (F : (w : Fin (cfg).W) → Buf Val (((cfg).spec w).arr.view.loc (c.tc : Thread nD τ))),
        (∀ w, F w = W (Proc.devRef .tc (arrRef (cfg).spec w))) →
        (dats p c).arrays F ⊢ (arrBufs (cfg).spec c (fun b => W (Proc.devRef .tc b)) : sProp 𝕄))
    (hA : ∀ c w, (dats p c).A w = V₀ c (Proc.devRef .tc (arrRef (cfg).spec w)))
    (Wx : Dev nD → Valuation τ sig Val)
    (hWx : ∀ c w, Wx c (Proc.devRef .tc (arrRef (cfg).spec w)) = (dats p c).arrAt w (cfg).N)
    (hWx' : ∀ c (b : Ref sig .tc), (∀ w, arrRef (cfg).spec w ≠ b) → Wx c (Proc.devRef .tc b) = V₀ c (Proc.devRef .tc b))
    (hΦ : ∀ c t, (dats p c).Φ t = ΦA (cfg).spec c) :
    θ_run 𝔻 (onTc main) (s₀ m g) (SharedPost cfgs dats p Wx opss) := by
  classical
  exact θ_run_region_pf_tail (fun q => (cfgs q).toPCfg (Val := Val)) (fun q => (cfgs q).toPCfg_adm) dats () hcell p hw
    (OwnSemFacts.none (cfg).spec) (PreFacts.none _) emb₁ defs₀ 𝒱₀ m g main
    (fun _ => chain (opss.map StableHlo.seq)) hbody hne harr hstage howed
    (G := fun _ => iprop(emp))
    (u₀ := initOf (cells (pin (fun q => (cfgs q).toPCfg (Val := Val)) (fun q => (cfgs q).toPCfg_adm)) hcell)
      (launchToks (pin (fun q => (cfgs q).toPCfg (Val := Val)) (fun q => (cfgs q).toPCfg_adm)) hcell))
    (hu₀ := by
      iintro Hu; imodintro
      isplitl [Hu]
      · iapply (show (ownU _ : sProp 𝕄) ⊢ BI.own (emb₁ (initOf (cells (pin (fun q => (cfgs q).toPCfg (Val := Val)) (fun q => (cfgs q).toPCfg_adm)) hcell)
          (launchToks (pin (fun q => (cfgs q).toPCfg (Val := Val)) (fun q => (cfgs q).toPCfg_adm)) hcell))) from .rfl); iexact Hu
      iapply (show (BI.emp : sProp 𝕄) ⊢ bigSep Finset.univ (fun _ : Dev nD => (BI.emp : sProp 𝕄)) from by rw [BI.bigSep_emp_const])
      iempintro)
    (V := fun c b => V₀ c (Proc.devRef .tc b)) (hmain := hmain)
    (hsplit := fun c => hsplit c (V₀ c) _ fun w => hA c w)
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Prefetch.none (cfg).spec c (fun b => V₀ c (Proc.devRef .tc b)))
    (Z' := fun c => unscopedRestP (Ix := Unit) (Name := ℕ) (U := UR sig nD τ) (Lvl := ℕ) Prefetch.none (cfg).spec c
      (fun b => StableHlo.after opss.flatten (Wx c) (Proc.devRef .tc b)))
    (hX := fun c => by
      iintro ⟨HU, -, -, -, Hp, -⟩; imodintro
      isplitl [Hp]; · iexists _; iexact Hp
      iexact HU)
    (hin := fun c => by
      rw [hΦ]; unfold ΦA
      iintro ⟨Hp, -, Hr⟩
      isplitl [Hr] <;> iassumption)
    (hout := fun c => by
      rw [hΦ, ownSems0_none]; unfold ΦA
      iintro ⟨Hr, Hp⟩
      isplitl [Hp]; · iexact Hp
      isplitr; · iempintro
      iexact Hr)
    (htail := fun c Q' =>
      tail_seqs_shared cfgs dats p defs₀ 𝒱₀ c hw (V₀ c) opss hsub hfresh hkeep (hsplit c) (hjoin c) (Wx c) (hWx c) (hWx' c) Q')
    (QY := fun c s => ∀ b ∈ restRefsP sig Prefetch.none (cfg).spec, s.mem ((c.tc : Thread nD τ).loc b) = StableHlo.after opss.flatten (Wx c) (Proc.devRef .tc b))
    (hY := fun c s' => by
      iintro ⟨-, HU, HSI⟩
      unfold unscopedRestP
      imodintro
      iapply (pointsTo_read_all (restRefsP sig Prefetch.none (cfg).spec) (fun b => (c.tc : Thread nD τ).loc b)
        (fun b => StableHlo.after opss.flatten (Wx c) (Proc.devRef .tc b)) s')
      isplitl [HU] <;> iassumption)
    (hQ := fun s h c => ⟨(h c).1, fun b hb => (h c).2.2 b (Finset.mem_sdiff.mpr ⟨hb, fun hk => by
      obtain ⟨k, -, -⟩ := Finset.mem_image.mp hk
      exact k.elim0⟩)⟩)

end SharedAround

end Pipeline

end Idealize.ShloMosaic

end
-- ==== Proof.FrameK.lean ====
/-
  The run of the recurrent-cell program: the host lines that clamp the token index, gather its embedding row and
  re-lay the packed weights and biases as three gates; then ONE pipelined region of sixteen grid points, each
  computing a tile of 256 hidden units; nothing after it.

  The previous hidden row is staged TWICE: whole, for the hidden-side inner products, and tile by tile, for the
  final blend.  Both windows only read it, so each holds half of the array's ownership while the region runs: the
  array is dealt in two halves at the region's entry and the halves are joined again at its exit.  Every other array
  is staged once and held whole.  The body leaves each of its eight input buffers as it found it and the output
  buffer at the stored tile, so each input buffer holds its window's block at every point, fetched there or not.

  Stated: the run ends, faults nowhere, leaves every argument array as it was launched, and leaves the result array
  at what the sixteen write-backs made of it.
-/
import proofs.«409868_j40724879901195_3_alg».proof.Proof.BodyK
import proofs.«409868_j40724879901195_3_alg».proof.Proof.LibSharedLaunch

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The three stretches of host lines before the region. -/
abbrev prefixOps : List (List (HloOp τ sig (Elt F))) := [hostOps0, hostOps0_1, hostOps0_2]

/-- Core `c`'s buffers when the region is entered: after the host lines. -/
abbrev V₀ (c : Dev nD) : Valuation τ sig (Elt F) := StableHlo.after (prefixOps (F := F)).flatten (fun b => m (c, b))

/-- The same, read at a TensorCore reference. -/
abbrev V (c : Dev nD) (b : Ref sig .tc) : Buf (Elt F) ((c : Thread nD τ).loc b) := V₀ m c (Proc.devRef .tc b)

theorem prefixOps_sub : (prefixOps (F := F)).Forall fun ops => ops.Forall fun op => op.bufs ⊆ StableHlo.tcRefs τ sig :=
  ⟨hostOps0_sub, hostOps0_1_sub, hostOps0_2_sub⟩

theorem prefixOps_fresh : (prefixOps (F := F)).Forall fun ops => ops.Forall fun op => op.fresh = ∅ := by
  simp only [List.Forall]; repeat' constructor

/-- @main is the host lines, the region, and nothing more. -/
theorem hmain (𝒱₀ : Variants) :
    Pipeline.HMainK (Ix := Unit) (Name := ℕ) (U := UR sig nD τ) (Lvl := ℕ) cfgs 0 defs₀ 𝒱₀ m (main (F := F))
      (fun c b => V₀ m c (Proc.devRef .tc b)) (fun _ => Pipeline.chain (([] : List (List (HloOp τ sig (Elt F)))).map StableHlo.seq)) :=
  Pipeline.hmain_around cfgs 0 defs₀ 𝒱₀ m main prefixOps [] prefixOps_sub prefixOps_fresh fun c => (main_chain c).trans rfl

/-- No host line before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, fetched there or not, for any proof
    data whose array is the entry contents and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- Core `c`'s proof data: the arrays as the region finds them; after the body each input's buffer at its block and
    the output's at the stored tile of the eight input blocks; the two windows on the previous hidden row hold one
    half of it each, every other input its array whole; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out8 (iblk m c 0 t) (iblk m c 1 t) (iblk m c 2 t) (iblk m c 3 t) (iblk m c 4 t) (iblk m c 5 t) (iblk m c 6 t) (iblk m c 7 t)
  Φ _ := Pipeline.ΦA spec0 c
  q w := match w with
    | ⟨0, _⟩ => fullShare
    | ⟨1, _⟩ => fullShare
    | ⟨2, _⟩ => fullShare.left
    | ⟨3, _⟩ => fullShare.right
    | ⟨4, _⟩ => fullShare
    | ⟨5, _⟩ => fullShare
    | ⟨6, _⟩ => fullShare
    | ⟨7, _⟩ => fullShare
    | ⟨8, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = out8 (iblk m c 0 t) (iblk m c 1 t) (iblk m c 2 t) (iblk m c 3 t) (iblk m c 4 t) (iblk m c 5 t) (iblk m c 6 t) (iblk m c 7 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).Φ t.succ = (dats m 0 c).Φ t.castSucc from rfl,
    show (dats m 0 c).owesAt () t.succ = (dats m 0 c).owesAt () t.castSucc from rfl,
    after0, after1, after2, after3, after4, after5, after6, after7, after8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.RunK.lean ====
/-
  The whole run of the recurrent-cell program, from the body obligation.

  At the region's entry the array of the previous hidden row, which two windows stage, is dealt in two halves, one per
  window; every other array goes whole to its one window.  At the exit the halves are joined.  The exit contents are
  the entry contents but for the result array, which holds what the sixteen write-backs made of it.  Read at the
  arguments, the run's post says each is as launched: an argument some window stages is an input array, never written;
  the others are touched by no host line and by no window.
-/
import proofs.«409868_j40724879901195_3_alg».proof.Proof.FrameK

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The shared array dealt and joined -/

/-- The eight distinct arrays behind the nine windows, one by one. -/
theorem arrBufs_chain (c : Dev nD) (Vb : (b : Ref sig .tc) → Buf (Elt F) ((c.tc : Thread nD τ).loc b)) :
    (Pipeline.arrBufs (Ix := Unit) (Name := ℕ) (U := UR sig nD τ) (Lvl := ℕ) spec0 c Vb : sProp 𝕄)
      = iprop((((c : Thread nD τ).loc main_v7) ↦{fullShare} Vb main_v7) ∗ (((c : Thread nD τ).loc main_arg2) ↦{fullShare} Vb main_arg2)
          ∗ (((c : Thread nD τ).loc main_arg1) ↦{fullShare} Vb main_arg1) ∗ (((c : Thread nD τ).loc main_v8) ↦{fullShare} Vb main_v8)
          ∗ (((c : Thread nD τ).loc main_v10) ↦{fullShare} Vb main_v10) ∗ (((c : Thread nD τ).loc main_v9) ↦{fullShare} Vb main_v9)
          ∗ (((c : Thread nD τ).loc main_v11) ↦{fullShare} Vb main_v11) ∗ (((c : Thread nD τ).loc main_v12) ↦{fullShare} Vb main_v12)) := by
  unfold Pipeline.arrBufs
  exact bigSep_eq_bigSepL_of_eq [main_v7, main_arg2, main_arg1, main_v8, main_v10, main_v9, main_v11, main_v12] (by decide) (by decide) _

/-- The nine windows' holdings, one by one: the previous hidden row by halves, every other array whole. -/
theorem arrays_chain (c : Dev nD) (W : Valuation τ sig (Elt F)) :
    ((dats m 0 c).arrays (fun w => W (Proc.devRef .tc (Pipeline.arrRef spec0 w))) : sProp 𝕄)
      = iprop((((c : Thread nD τ).loc main_v7) ↦{fullShare} W (Proc.devRef .tc main_v7)) ∗ (((c : Thread nD τ).loc main_arg2) ↦{fullShare} W (Proc.devRef .tc main_arg2))
          ∗ (((c : Thread nD τ).loc main_arg1) ↦{fullShare.left} W (Proc.devRef .tc main_arg1)) ∗ (((c : Thread nD τ).loc main_arg1) ↦{fullShare.right} W (Proc.devRef .tc main_arg1))
          ∗ (((c : Thread nD τ).loc main_v8) ↦{fullShare} W (Proc.devRef .tc main_v8)) ∗ (((c : Thread nD τ).loc main_v10) ↦{fullShare} W (Proc.devRef .tc main_v10))
          ∗ (((c : Thread nD τ).loc main_v9) ↦{fullShare} W (Proc.devRef .tc main_v9)) ∗ (((c : Thread nD τ).loc main_v11) ↦{fullShare} W (Proc.devRef .tc main_v11))
          ∗ (((c : Thread nD τ).loc main_v12) ↦{fullShare} W (Proc.devRef .tc main_v12))) := by
  unfold Dat.arrays
  rw [bigSep_W0]
  rw [(arr_whole0 0).set_eq_univ, (arr_whole0 1).set_eq_univ, (arr_whole0 2).set_eq_univ, (arr_whole0 4).set_eq_univ,
    (arr_whole0 5).set_eq_univ, (arr_whole0 6).set_eq_univ, (arr_whole0 7).set_eq_univ, (arr_whole0 8).set_eq_univ]
  rfl

theorem hsplit (c : Dev nD) (W : Valuation τ sig (Elt F))
    (F' : (w : Fin cfg0.W) → Buf (Elt F) ((spec0 w).arr.view.loc (c.tc : Thread nD τ)))
    (hF : ∀ w, F' w = W (Proc.devRef .tc (Pipeline.arrRef spec0 w))) :
    (Pipeline.arrBufs (Ix := Unit) (Name := ℕ) (U := UR sig nD τ) (Lvl := ℕ) spec0 c (fun b => W (Proc.devRef .tc b)) : sProp 𝕄) ⊢ (dats m 0 c).arrays F' := by
  obtain rfl : F' = fun w => W (Proc.devRef .tc (Pipeline.arrRef spec0 w)) := funext hF
  rw [arrBufs_chain, arrays_chain]
  iintro ⟨H0, H1, H2, H4, H5, H6, H7, H8⟩
  ihave H23 := (pointsTo_share (PosShare.mem_left_op_right fullShare)).1 $$ H2
  icases H23 with ⟨H2, H3⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem hjoin (c : Dev nD) (W : Valuation τ sig (Elt F))
    (F' : (w : Fin cfg0.W) → Buf (Elt F) ((spec0 w).arr.view.loc (c.tc : Thread nD τ)))
    (hF : ∀ w, F' w = W (Proc.devRef .tc (Pipeline.arrRef spec0 w))) :
    (dats m 0 c).arrays F' ⊢ (Pipeline.arrBufs (Ix := Unit) (Name := ℕ) (U := UR sig nD τ) (Lvl := ℕ) spec0 c (fun b => W (Proc.devRef .tc b)) : sProp 𝕄) := by
  obtain rfl : F' = fun w => W (Proc.devRef .tc (Pipeline.arrRef spec0 w)) := funext hF
  rw [arrBufs_chain, arrays_chain]
  iintro ⟨H0, H1, H2, H3, H4, H5, H6, H7, H8⟩
  isplitl [H0]; · iexact H0
  isplitl [H1]; · iexact H1
  isplitl [H2 H3]
  · iapply (pointsTo_share (PosShare.mem_left_op_right fullShare)).2
    isplitl [H2]; · iexact H2
    iexact H3
  isplitl [H4]; · iexact H4
  isplitl [H5]; · iexact H5
  isplitl [H6]; · iexact H6
  isplitl [H7]; · iexact H7
  iexact H8

/-! ## The contents at the region's exit -/

/-- The result array at what the write-backs made of it, every other buffer as the region found it. -/
def Wx (c : Dev nD) : Valuation τ sig (Elt F) :=
  Function.update (V₀ m c) (Proc.devRef .tc main_v12) ((dats m 0 c).arrAt 8 cfg0.N)

theorem Wx_arr (c : Dev nD) : ∀ w : Fin 9,
    Wx m c (Proc.devRef .tc (Pipeline.arrRef spec0 w)) = (dats m 0 c).arrAt w cfg0.N := fun
  | 0 => (Function.update_of_ne (StableHlo.devRef_ne_of_ne (by decide)) _ _).trans (((dats m 0 c).arrAt_in 0 rfl _).trans (A_eq m c 0)).symm
  | 1 => (Function.update_of_ne (StableHlo.devRef_ne_of_ne (by decide)) _ _).trans (((dats m 0 c).arrAt_in 1 rfl _).trans (A_eq m c 1)).symm
  | 2 => (Function.update_of_ne (StableHlo.devRef_ne_of_ne (by decide)) _ _).trans (((dats m 0 c).arrAt_in 2 rfl _).trans (A_eq m c 2)).symm
  | 3 => (Function.update_of_ne (StableHlo.devRef_ne_of_ne (by decide)) _ _).trans (((dats m 0 c).arrAt_in 3 rfl _).trans (A_eq m c 3)).symm
  | 4 => (Function.update_of_ne (StableHlo.devRef_ne_of_ne (by decide)) _ _).trans (((dats m 0 c).arrAt_in 4 rfl _).trans (A_eq m c 4)).symm
  | 5 => (Function.update_of_ne (StableHlo.devRef_ne_of_ne (by decide)) _ _).trans (((dats m 0 c).arrAt_in 5 rfl _).trans (A_eq m c 5)).symm
  | 6 => (Function.update_of_ne (StableHlo.devRef_ne_of_ne (by decide)) _ _).trans (((dats m 0 c).arrAt_in 6 rfl _).trans (A_eq m c 6)).symm
  | 7 => (Function.update_of_ne (StableHlo.devRef_ne_of_ne (by decide)) _ _).trans (((dats m 0 c).arrAt_in 7 rfl _).trans (A_eq m c 7)).symm
  | 8 => Function.update_self ..
  | ⟨_ + 9, h⟩ => absurd h (Nat.not_lt.2 (Nat.le_add_left _ _))

theorem Wx_rest (c : Dev nD) (b : Ref sig .tc) (hb : ∀ w, Pipeline.arrRef spec0 w ≠ b) :
    Wx m c (Proc.devRef .tc b) = V₀ m c (Proc.devRef .tc b) :=
  Function.update_of_ne (StableHlo.devRef_ne_of_ne (hb 8).symm) _ _

/-! ## The run -/

set_option backward.isDefEq.respectTransparency.types false in
/-- Every weakly fair execution of @main terminates, faults nowhere, and ends with every window's array at what the
    proof data computes and every other unscoped buffer as the region found it. -/
theorem run_main : θ_run defs (onTc (τ := τ) (main (F := F))) (s₀ m ρ) (Pipeline.SharedPost cfgs (dats m) 0 (Wx m) []) :=
  Pipeline.θ_run_frame_around_shared cfgs (dats m) (0 : Fin 1) defs₀ Variants.none cellOf_inj winFacts₀0 block_pos0 arr_whole0 stage_whole0 m ρ main
    (hbody := fun c => (body_obligation m c).loose) (howed := fun _ _ => rfl) (V₀ := V₀ m) (opss := [])
    (hsub := fun _ h => absurd h List.not_mem_nil) (hfresh := fun _ h => absurd h List.not_mem_nil) (hkeep := fun _ h => absurd h List.not_mem_nil)
    (hmain := hmain m Variants.none) (hsplit := hsplit m) (hjoin := hjoin m) (hA := fun c w => A_eq m c w)
    (Wx := Wx m) (hWx := Wx_arr m) (hWx' := Wx_rest m) (hΦ := fun _ _ => rfl)

/-- The run read at the result and at the arguments: the result array at what the write-backs made of it, every
    argument as launched. -/
theorem run_result : θ_run defs (onTc (τ := τ) (main (F := F))) ⟨m, fun _ => 0, ρ⟩ (fun r => ∀ c : Dev nD,
      r.2.mem ((c.tc : Thread nD τ).loc main_v12) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h' c => by
    have h := fun c => (⟨(h' c).1 8, (h' c).1, (h' c).2⟩ : _ ∧ _ ∧ _)
    exact ⟨(h c).1,
      ((h c).2.2 main_arg0 (Pipeline.mem_restRefs_of main_arg0 (by decide) (by decide))).trans ((Wx_rest m c main_arg0 (by decide)).trans (V_main_arg0 m c)),
      ((h c).2.1 2).trans (((dats m 0 c).arrAt_in 2 rfl _).trans ((A_eq m c 2).trans (V_main_arg1 m c))),
      ((h c).2.1 1).trans (((dats m 0 c).arrAt_in 1 rfl _).trans ((A_eq m c 1).trans (V_main_arg2 m c))),
      ((h c).2.2 main_arg3 (Pipeline.mem_restRefs_of main_arg3 (by decide) (by decide))).trans ((Wx_rest m c main_arg3 (by decide)).trans (V_main_arg3 m c)),
      ((h c).2.2 main_arg4 (Pipeline.mem_restRefs_of main_arg4 (by decide) (by decide))).trans ((Wx_rest m c main_arg4 (by decide)).trans (V_main_arg4 m c)),
      ((h c).2.2 main_arg5 (Pipeline.mem_restRefs_of main_arg5 (by decide) (by decide))).trans ((Wx_rest m c main_arg5 (by decide)).trans (V_main_arg5 m c)),
      ((h c).2.2 main_arg6 (Pipeline.mem_restRefs_of main_arg6 (by decide) (by decide))).trans ((Wx_rest m c main_arg6 (by decide)).trans (V_main_arg6 m c)),
      ((h c).2.2 main_arg7 (Pipeline.mem_restRefs_of main_arg7 (by decide) (by decide))).trans ((Wx_rest m c main_arg7 (by decide)).trans (V_main_arg7 m c))⟩) (run_main m ρ)

/-- The frame: the run ends and every argument is as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2) (run_result m ρ)

end Cert.Kernel.Hand

end
-- ==== Proof.TileKI.lean ====
/-
  One tile of the recurrent-cell kernel: the row of 256 new hidden values the body stores at a grid point, as ONE
  function of the eight staged blocks it reads — the gathered embedding row (1 × 1024), the goal encoding (1 × 6),
  the whole previous hidden row (1 × 4096), this tile's 256 entries of it, this tile's three 256 × 1030 slabs of the
  input weights with their 3 × 256 biases, and this tile's three 256 × 4096 slabs of the hidden weights with their
  3 × 256 biases — and what the output buffer holds after the one store, which covers it.
-/
import proofs.«409868_j40724879901195_3_alg».proof.Proof.Gen.KernelIdeal.Launch
import proofs.«409868_j40724879901195_3_alg».proof.Proof.Gen.KernelIdeal.Skeleton
import proofs.«409868_j40724879901195_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The rectangles the body reads and writes: each buffer whole, but the weights one gate's slab at a time -/

abbrev rX : Rect S1x1024 := Rect.unit (s := S1x1024) ![0, 0] S1x1024.size inb_S1x1024_S1x1024_0_0
abbrev rG : Rect S1x6 := Rect.unit (s := S1x6) ![0, 0] S1x6.size inb_S1x6_S1x6_0_0
abbrev rP : Rect S1x4096 := Rect.unit (s := S1x4096) ![0, 0] S1x4096.size inb_S1x4096_S1x4096_0_0
abbrev rT : Rect S1x256 := Rect.unit (s := S1x256) ![0, 0] S1x256.size inb_S1x256_S1x256_0_0
abbrev rB : Rect S3x256 := Rect.unit (s := S3x256) ![0, 0] S3x256.size inb_S3x256_S3x256_0_0
abbrev rI0 : Rect S3x256x1030 := Rect.unit (s := S3x256x1030) ![0, 0, 0] S1x256x1030.size inb_S3x256x1030_S1x256x1030_0_0_0
abbrev rI1 : Rect S3x256x1030 := Rect.unit (s := S3x256x1030) ![1, 0, 0] S1x256x1030.size inb_S3x256x1030_S1x256x1030_1_0_0
abbrev rI2 : Rect S3x256x1030 := Rect.unit (s := S3x256x1030) ![2, 0, 0] S1x256x1030.size inb_S3x256x1030_S1x256x1030_2_0_0
abbrev rH0 : Rect S3x256x4096 := Rect.unit (s := S3x256x4096) ![0, 0, 0] S1x256x4096.size inb_S3x256x4096_S1x256x4096_0_0_0
abbrev rH1 : Rect S3x256x4096 := Rect.unit (s := S3x256x4096) ![1, 0, 0] S1x256x4096.size inb_S3x256x4096_S1x256x4096_1_0_0
abbrev rH2 : Rect S3x256x4096 := Rect.unit (s := S3x256x4096) ![2, 0, 0] S1x256x4096.size inb_S3x256x4096_S1x256x4096_2_0_0

/-! ## The stored row -/

/-- The row of 256 new hidden values the body stores, from the eight blocks it reads. -/
def tile (x0 : Vec F S1x1024 .f32) (x1 : Vec F S1x6 .f32) (x2 : Vec F S1x4096 .f32) (x3 : Vec F S1x256 .f32)
    (x4 : Vec F S3x256x1030 .f32) (x5 : Vec F S3x256 .f32) (x6 : Vec F S3x256x4096 .f32) (x7 : Vec F S3x256 .f32) :
    Vec F S1x256 .f32 :=
  k0_pay1 (k0_pay3 (View.ld x2 rP)) (View.ld x3 rT) (k0_pay5 (View.ld x7 rB))
    (k0_pay6 (View.ld x0 rX) (View.ld x1 rG) (View.ld x5 rB) (View.ld x4 rI0))
    (k0_pay7 (View.ld x0 rX) (View.ld x1 rG) (View.ld x5 rB) (View.ld x4 rI1))
    (k0_pay8 (View.ld x0 rX) (View.ld x1 rG) (View.ld x5 rB) (View.ld x4 rI2))
    (k0_pay9 (View.ld x6 rH0)) (View.ld x6 rH1) (View.ld x6 rH2)

/-- What the output buffer holds after the body: its one store, over the whole buffer. -/
def out8 (x0 : Vec F S1x1024 .f32) (x1 : Vec F S1x6 .f32) (x2 : Vec F S1x4096 .f32) (x3 : Vec F S1x256 .f32)
    (x4 : Vec F S3x256x1030 .f32) (x5 : Vec F S3x256 .f32) (x6 : Vec F S3x256x4096 .f32) (x7 : Vec F S3x256 .f32) :
    Vec F S1x256 .f32 :=
  View.canon [⟨rT, tile x0 x1 x2 x3 x4 x5 x6 x7⟩]

/-- The one store covers the output buffer. -/
theorem cover8 (p0 : Vec F S1x256 .f32) (y : S1x256.Idx) :
    ∃ pc ∈ ([⟨rT, p0⟩] : List (View.Piece (Elt F) S1x256 .f32)), y ∈ pc.1.set :=
  View.cover_of_tiled [⟨rT, p0⟩] S1x256.size (by rfl) y

end Cert.KernelIdeal.Hand

end
-- ==== Proof.BodyKI.lean ====
/-
  The body of the recurrent-cell kernel at one grid point, as a triple: on whole staging buffers, the eight inputs at
  any read contents and the output at anything, it runs without fault, hands the eight inputs back as it found them
  and leaves the output buffer at the one row it stores (the tile module's `out8` of the eight blocks).
-/
import proofs.«409868_j40724879901195_3_alg».proof.Proof.TileKI
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's triple -/

set_option maxHeartbeats 4000000 in
/-- On whole staging memrefs, the inputs' at read contents `x0 … x7` and the output's at anything, the body runs to
    the continuation holding the inputs' as they were and the output's at `out8` of them. -/
theorem sound_kernel (c : Dev nD) (E : Set ℕ) (i : grid0.Coords)
    (arg1 : Memref sig .tc .vmem S1x1024 .f32) (harg1 : arg1.IsWhole) (arg2 : Memref sig .tc .vmem S1x6 .f32) (harg2 : arg2.IsWhole)
    (arg3 : Memref sig .tc .vmem S1x4096 .f32) (harg3 : arg3.IsWhole) (arg4 : Memref sig .tc .vmem S1x256 .f32) (harg4 : arg4.IsWhole)
    (arg5 : Memref sig .tc .vmem S3x256x1030 .f32) (harg5 : arg5.IsWhole) (arg6 : Memref sig .tc .vmem S3x256 .f32) (harg6 : arg6.IsWhole)
    (arg7 : Memref sig .tc .vmem S3x256x4096 .f32) (harg7 : arg7.IsWhole) (arg8 : Memref sig .tc .vmem S3x256 .f32) (harg8 : arg8.IsWhole)
    (arg9 : Memref sig .tc .vmem S1x256 .f32) (harg9 : arg9.IsWhole)
    (x0 : Vec F S1x1024 .f32) (x1 : Vec F S1x6 .f32) (x2 : Vec F S1x4096 .f32) (x3 : Vec F S1x256 .f32)
    (x4 : Vec F S3x256x1030 .f32) (x5 : Vec F S3x256 .f32) (x6 : Vec F S3x256x4096 .f32) (x7 : Vec F S3x256 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (out8 x0 x1 x2 x3 x4 x5 x6 x7)) -∗ K ⟨⟩))
      ⊢ wp frame (wpE (defs₀ (F := F)) Variants.none c none) E
          (cc0__gru_kernel i arg1 harg1 arg2 harg2 arg3 harg3 arg4 harg4 arg5 harg5 arg6 harg6 arg7 harg7 arg8 harg8 arg9 harg9) K := by
  simp only [cc0__gru_kernel_eq_skeleton]; unfold cc0__gru_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover8 _)

end Cert.KernelIdeal.Hand

end
-- ==== Proof.FrameKI.lean ====
/-
  The run of the recurrent-cell program: the host lines that clamp the token index, gather its embedding row and
  re-lay the packed weights and biases as three gates; then ONE pipelined region of sixteen grid points, each
  computing a tile of 256 hidden units; nothing after it.

  The previous hidden row is staged TWICE: whole, for the hidden-side inner products, and tile by tile, for the
  final blend.  Both windows only read it, so each holds half of the array's ownership while the region runs: the
  array is dealt in two halves at the region's entry and the halves are joined again at its exit.  Every other array
  is staged once and held whole.  The body leaves each of its eight input buffers as it found it and the output
  buffer at the stored tile, so each input buffer holds its window's block at every point, fetched there or not.

  Stated: the run ends, faults nowhere, leaves every argument array as it was launched, and leaves the result array
  at what the sixteen write-backs made of it.
-/
import proofs.«409868_j40724879901195_3_alg».proof.Proof.BodyKI
import proofs.«409868_j40724879901195_3_alg».proof.Proof.LibSharedLaunch

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The three stretches of host lines before the region. -/
abbrev prefixOps : List (List (HloOp τ sig (Elt F))) := [hostOps0, hostOps0_1, hostOps0_2]

/-- Core `c`'s buffers when the region is entered: after the host lines. -/
abbrev V₀ (c : Dev nD) : Valuation τ sig (Elt F) := StableHlo.after (prefixOps (F := F)).flatten (fun b => m (c, b))

/-- The same, read at a TensorCore reference. -/
abbrev V (c : Dev nD) (b : Ref sig .tc) : Buf (Elt F) ((c : Thread nD τ).loc b) := V₀ m c (Proc.devRef .tc b)

theorem prefixOps_sub : (prefixOps (F := F)).Forall fun ops => ops.Forall fun op => op.bufs ⊆ StableHlo.tcRefs τ sig :=
  ⟨hostOps0_sub, hostOps0_1_sub, hostOps0_2_sub⟩

theorem prefixOps_fresh : (prefixOps (F := F)).Forall fun ops => ops.Forall fun op => op.fresh = ∅ := by
  simp only [List.Forall]; repeat' constructor

/-- @main is the host lines, the region, and nothing more. -/
theorem hmain (𝒱₀ : Variants) :
    Pipeline.HMainK (Ix := Unit) (Name := ℕ) (U := UR sig nD τ) (Lvl := ℕ) cfgs 0 defs₀ 𝒱₀ m (main (F := F))
      (fun c b => V₀ m c (Proc.devRef .tc b)) (fun _ => Pipeline.chain (([] : List (List (HloOp τ sig (Elt F)))).map StableHlo.seq)) :=
  Pipeline.hmain_around cfgs 0 defs₀ 𝒱₀ m main prefixOps [] prefixOps_sub prefixOps_fresh fun c => (main_chain c).trans rfl

/-- No host line before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, fetched there or not, for any proof
    data whose array is the entry contents and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- Core `c`'s proof data: the arrays as the region finds them; after the body each input's buffer at its block and
    the output's at the stored tile of the eight input blocks; the two windows on the previous hidden row hold one
    half of it each, every other input its array whole; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out8 (iblk m c 0 t) (iblk m c 1 t) (iblk m c 2 t) (iblk m c 3 t) (iblk m c 4 t) (iblk m c 5 t) (iblk m c 6 t) (iblk m c 7 t)
  Φ _ := Pipeline.ΦA spec0 c
  q w := match w with
    | ⟨0, _⟩ => fullShare
    | ⟨1, _⟩ => fullShare
    | ⟨2, _⟩ => fullShare.left
    | ⟨3, _⟩ => fullShare.right
    | ⟨4, _⟩ => fullShare
    | ⟨5, _⟩ => fullShare
    | ⟨6, _⟩ => fullShare
    | ⟨7, _⟩ => fullShare
    | ⟨8, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = out8 (iblk m c 0 t) (iblk m c 1 t) (iblk m c 2 t) (iblk m c 3 t) (iblk m c 4 t) (iblk m c 5 t) (iblk m c 6 t) (iblk m c 7 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).Φ t.succ = (dats m 0 c).Φ t.castSucc from rfl,
    show (dats m 0 c).owesAt () t.succ = (dats m 0 c).owesAt () t.castSucc from rfl,
    after0, after1, after2, after3, after4, after5, after6, after7, after8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.Index.lean ====
/-
  The token index, as a 32-bit word read signed.

  One program clamps the index into [0, 31999] before it wraps negative indices; the other only wraps them.  For an
  index that is in range to begin with — at least 0, below 32000 — the clamp returns it unchanged and the wrap, which
  only moves negative words, returns it unchanged too: both programs look up the same row.
-/
import Idealize.ShloMosaic.PureOps
import Idealize.ShloMosaic.Lib.StableHlo.Predicate

namespace GruCell

open Idealize.ShloMosaic

/-- The two comparisons the precondition makes of the index, as facts about its signed value. -/
theorem range_of_cmp {w : BitVec 32} (h0 : IntOp.cmpi .sge w 0#32 = 1#1) (h1 : IntOp.cmpi .slt w 32000#32 = 1#1) :
    0 ≤ w.toInt ∧ w.toInt < 32000 := by
  unfold IntOp.cmpi at h0 h1
  rw [StableHlo.Predicate.ofBool_eq_one_iff] at h0 h1
  simp only [BitVec.slt, BitVec.sle, decide_eq_true_eq] at h0 h1
  have e0 : (0#32 : BitVec 32).toInt = 0 := by decide
  have e1 : (32000#32 : BitVec 32).toInt = 32000 := by decide
  rw [e0] at h0; rw [e1] at h1
  exact ⟨h0, h1⟩

/-- An index in range passes the clamp into [0, 31999] unchanged. -/
theorem clamp_id {w : BitVec 32} (h0 : 0 ≤ w.toInt) (h1 : w.toInt < 32000) :
    IntOp.minsi 31999#32 (IntOp.maxsi 0#32 w) = w := by
  have e0 : (0#32 : BitVec 32).toInt = 0 := by decide
  have e1 : (31999#32 : BitVec 32).toInt = 31999 := by decide
  have c1 : w.slt 0#32 = false := by
    simp only [BitVec.slt, decide_eq_false_iff_not, not_lt, e0]; exact h0
  have m1 : IntOp.maxsi 0#32 w = w := by unfold IntOp.maxsi; rw [c1]; rfl
  have c2 : (31999#32 : BitVec 32).slt w = false := by
    simp only [BitVec.slt, decide_eq_false_iff_not, not_lt, e1]; omega
  rw [m1]; unfold IntOp.minsi; rw [c2]; rfl

/-- An index that is not negative is left alone by the wrap of negative indices. -/
theorem wrap_id {w : BitVec 32} (h0 : 0 ≤ w.toInt) :
    Scalar.select (IntOp.cmpi .slt w 0#32) (IntOp.addi w 32000#32) w = w := by
  have e0 : (0#32 : BitVec 32).toInt = 0 := by decide
  have c1 : w.slt 0#32 = false := by
    simp only [BitVec.slt, decide_eq_false_iff_not, not_lt, e0]; exact h0
  have hc : IntOp.cmpi .slt w 0#32 = 0#1 := by
    show BitVec.ofBool (w.slt 0#32) = 0#1
    rw [c1]; rfl
  rw [hc]
  unfold Scalar.select
  exact if_neg (by decide)

end GruCell
-- ==== Proof.Spec.lean ====
/-
  One step of a gated recurrent cell, for ONE hidden unit, as a function of the rows that unit reads.

  The unit has an input-side and a hidden-side pre-activation for each of the three gates (reset, update,
  candidate, in that order): the inner product of the input row `X` (resp. the previous hidden row `P`) with the
  unit's weight row of that gate, plus the unit's bias of that gate.  With `a g` the input-side and `h g` the
  hidden-side pre-activation,

      r = σ (a 0 + h 0),   z = σ (a 1 + h 1),   n = tanh (a 2 + r · h 2),   new = (1 - z) · n + z · p

  where `σ x = 1 / (1 + e^(-x))` and `p` is the unit's own previous value.  Everything is over the extended reals;
  nothing here needs the rows to be finite: the two programs compared against this function spell the very same
  operations in the very same order, so no law of arithmetic beyond the definition of `σ` is used.
-/
import Idealize.ShloMosaic.PureOps.Ideal
import Idealize.ShloMosaic.PureOps.IdealRules

noncomputable section

namespace GruCell

open Idealize.ShloMosaic

/-- The constant one as both programs write it: the f32 word of `1.0`. -/
abbrev one : EReal := Ideal.ofBits .f32 0x3F800000#32

/-- That word denotes the number one. -/
theorem one_eq : one = 1 := IdealRules.sign_bit.ideal_onePat .f32

/-- A gate's pre-activation on one side: the row's inner product with the unit's weight row, plus the bias. -/
def pre {K : Nat} (row : Fin K → EReal) (w : Fin K → EReal) (b : EReal) : EReal :=
  (∑ k : Fin K, row k * w k) + b

/-- The unit's new value from its rows: `X` the input row, `P` the previous hidden row, `wih g` / `whh g` the
    unit's weight rows and `bih g` / `bhh g` its biases for gate `g`, `p` its own previous value. -/
def cell {KI KH : Nat} (X : Fin KI → EReal) (P : Fin KH → EReal)
    (wih : Fin 3 → Fin KI → EReal) (bih : Fin 3 → EReal) (whh : Fin 3 → Fin KH → EReal) (bhh : Fin 3 → EReal)
    (p : EReal) : EReal :=
  (one - Ideal.logistic (pre X (wih 1) (bih 1) + pre P (whh 1) (bhh 1)))
      * Ideal.tanh (pre X (wih 2) (bih 2)
          + Ideal.logistic (pre X (wih 0) (bih 0) + pre P (whh 0) (bhh 0)) * pre P (whh 2) (bhh 2))
    + Ideal.logistic (pre X (wih 1) (bih 1) + pre P (whh 1) (bhh 1)) * p

/-- The packed weight and bias arrays hold gate `g`'s row of hidden unit `j` at row `4096 g + j`. -/
def gateRow (g : Fin 3) (j : Fin 4096) : Fin 12288 := ⟨g.val * 4096 + j.val, by omega⟩

theorem gateRow_val (g : Fin 3) (j : Fin 4096) : (gateRow g j).val = g.val * 4096 + j.val := rfl

/-- The sigmoid spelt out with the constant's word, as a host program expands it, is the sigmoid. -/
theorem logistic_spelt (x : EReal) : Ideal.div one (one + Ideal.exp (-x)) = Ideal.logistic x := by
  rw [one_eq]; rfl

end GruCell

end
-- ==== Proof.EntryKI.lean ====
/-
  What the region finds in the arrays its windows stage, as functions of the arguments.

  The embedding row: the table gathered at the token index clamped into [0, 31999] and then wrapped where negative —
  for an index in range, the token index itself.  The weights and biases: the packed arrays re-laid with the gate as
  a leading axis of extent three; row-major order is kept, so entry (gate, unit, k) of the re-laid array is entry
  (4096 · gate + unit, k) of the packed one.
-/
import proofs.«409868_j40724879901195_3_alg».proof.Proof.FrameKI
import proofs.«409868_j40724879901195_3_alg».proof.Proof.Index
import proofs.«409868_j40724879901195_3_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx Idealize.SL.Sem
open Cert.KernelIdeal Cert.KernelIdeal.Gen

variable {F : FTy → Type} [FloatOps F]
variable (m : (ℓ : Loc nD τ sig) → Buf (Elt F) ℓ)

/-! ## The looked-up index -/

/-- The token index clamped into [0, 31999]. -/
def clamped (a0 : IVec S1 32) : IVec S1 32 :=
  minsi (broadcastInDim S1 ![] bcast_S_S1 (constantI S_ 32 31999#32)) (maxsi (broadcastInDim S1 ![] bcast_S_S1 (constantI S_ 32 0#32)) a0)

/-- The index the gather is given: the clamped index, moved up by the table's height where negative. -/
def lookup (a0 : IVec S1 32) : IVec S1 32 :=
  select (cmpi .slt (clamped a0) (broadcastInDim S1 ![] bcast_S_S1 (constantI S_ 32 0#32)))
    (addi (clamped a0) (broadcastInDim S1 ![] bcast_S_S1 (constantI S_ 32 32000#32))) (clamped a0)

/-- For a token index in range it is the token index. -/
theorem lookup_eq (a0 : IVec S1 32) (h : ∀ i, 0 ≤ (a0 i).toInt ∧ (a0 i).toInt < 32000) : lookup a0 = a0 := by
  funext i
  show Scalar.select (IntOp.cmpi .slt (IntOp.minsi 31999#32 (IntOp.maxsi 0#32 (a0 i))) 0#32)
      (IntOp.addi (IntOp.minsi 31999#32 (IntOp.maxsi 0#32 (a0 i))) 32000#32) (IntOp.minsi 31999#32 (IntOp.maxsi 0#32 (a0 i))) = a0 i
  rw [GruCell.clamp_id (h i).1 (h i).2]
  exact GruCell.wrap_id (h i).1

/-! ## The arrays at the region's entry -/

set_option maxHeartbeats 2000000 in
/-- The embedding row the region finds: the table gathered at the looked-up index. -/
theorem V_main_v7 (c : Dev nD) :
    V m c main_v7 = Host.gather gather_S32000x1024_S1x1_S1x1024_1_0_n_n_0_1_11024 (m ((c : Thread nD τ).loc main_arg3))
      (broadcastInDim S1x1 ![0] bcast_S1_S1x1_0 (lookup (m ((c : Thread nD τ).loc main_arg0)))) := by
  dsimp only [V, V₀, prefixOps]
  simp only [hostOps0, hostOps0_1, hostOps0_2, List.flatten_cons, List.flatten_nil, List.append_nil, List.cons_append, List.nil_append]
  after_results_simp
  rfl

/-- The input weights the region finds: the packed array with the gate as leading axis. -/
theorem V_main_v8 (c : Dev nD) :
    V m c main_v8 = shapeCast S3x4096x1030 (m ((c : Thread nD τ).loc main_arg4)) shapeCasts_S12288x1030_S3x4096x1030 := by
  dsimp only [V, V₀, prefixOps]
  simp only [hostOps0, hostOps0_1, hostOps0_2, List.flatten_cons, List.flatten_nil, List.append_nil, List.cons_append, List.nil_append]
  after_results
  rfl

/-- The hidden weights likewise. -/
theorem V_main_v9 (c : Dev nD) :
    V m c main_v9 = shapeCast S3x4096x4096 (m ((c : Thread nD τ).loc main_arg6)) shapeCasts_S12288x4096_S3x4096x4096 := by
  dsimp only [V, V₀, prefixOps]
  simp only [hostOps0, hostOps0_1, hostOps0_2, List.flatten_cons, List.flatten_nil, List.append_nil, List.cons_append, List.nil_append]
  after_results
  rfl

/-- The input-side biases likewise. -/
theorem V_main_v10 (c : Dev nD) :
    V m c main_v10 = shapeCast S3x4096 (m ((c : Thread nD τ).loc main_arg5)) shapeCasts_S12288_S3x4096 := by
  dsimp only [V, V₀, prefixOps]
  simp only [hostOps0, hostOps0_1, hostOps0_2, List.flatten_cons, List.flatten_nil, List.append_nil, List.cons_append, List.nil_append]
  after_results
  rfl

/-- The hidden-side biases likewise. -/
theorem V_main_v11 (c : Dev nD) :
    V m c main_v11 = shapeCast S3x4096 (m ((c : Thread nD τ).loc main_arg7)) shapeCasts_S12288_S3x4096 := by
  dsimp only [V, V₀, prefixOps]
  simp only [hostOps0, hostOps0_1, hostOps0_2, List.flatten_cons, List.flatten_nil, List.append_nil, List.cons_append, List.nil_append]
  after_results
  rfl

/-! ## A re-laid array at an index -/

/-- Entry (gate, unit, k) of a packed matrix re-laid by gates is entry (4096 · gate + unit, k) of the packed matrix. -/
theorem relaid_mat {α : Type} {K : Nat} (x : (⟨2, ![12288, K]⟩ : Shape).Idx → α)
    (h : (⟨2, ![12288, K]⟩ : Shape).ShapeCasts ⟨3, ![3, 4096, K]⟩) (g : Fin 3) (r : Fin 4096) (k : Fin K) :
    shapeCast ⟨3, ![3, 4096, K]⟩ x h (ix3 g r k) = x (ix2 (GruCell.gateRow g r) k) :=
  shapeCast_apply x h _ _ (by rw [Shape.rowMajor_val_two, Shape.rowMajor_val_three]; rfl)

/-- Entry (gate, unit) of a packed vector re-laid by gates is entry 4096 · gate + unit of the packed vector. -/
theorem relaid_vec {α : Type} (x : (⟨1, ![12288]⟩ : Shape).Idx → α)
    (h : (⟨1, ![12288]⟩ : Shape).ShapeCasts ⟨2, ![3, 4096]⟩) (g : Fin 3) (r : Fin 4096) :
    shapeCast ⟨2, ![3, 4096]⟩ x h (ix2 g r) = x (ix1 (GruCell.gateRow g r)) :=
  shapeCast_apply x h _ _ (by rw [Shape.rowMajor_val_one, Shape.rowMajor_val_two]; rfl)

end Cert.KernelIdeal.Hand

end
-- ==== Proof.TileCellKI.lean ====
/-
  The recurrent-cell kernel's stored row, read at one column.

  At column `q` the row of 256 values the body stores is the gated recurrent cell's new value for the hidden unit
  whose weight rows are row `q` of each gate's slab: each of the six block products, of the 1 × K input row (the
  joined embedding and goal row, K = 1030, or the previous hidden row, K = 4096) with a gate's 256 × K slab
  contracting the long axis of both, is at column `q` the inner product of the row with the slab's row `q`;
  the format changes are the identity on extended reals; the bias slices read row `g` of the 3 × 256 biases;
  and the pointwise sigmoid, hyperbolic tangent, sums, products and the difference from one are the cell's
  own, in the cell's own order.
-/
import proofs.«409868_j40724879901195_3_alg».proof.Proof.TileKI
import proofs.«409868_j40724879901195_3_alg».proof.Proof.Spec
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

set_option maxRecDepth 16384

noncomputable section

namespace Cert.KernelIdeal.Hand

open Idealize.ShloMosaic Idealize.ShloMosaic.ValueIdx
open Cert.KernelIdeal Cert.KernelIdeal.Gen

/-! ## The operand indices of the two block products -/

/-- The input-side product's left operand keeps the result's row … -/
theorem lhs_in_0 (i : S1x256.Idx) (c : dot_S1x1030_S256x1030_S1x256_1_1_0_0_n_n.contr.Idx) :
    (dot_S1x1030_S256x1030_S1x256_1_1_0_0_n_n.lhsIdx i c 0).val = (i 0).val := by
  unfold DotDims.lhsIdx
  rw [dif_neg (show ¬(0 : Fin S1x1030.rank) ∈ dot_S1x1030_S256x1030_S1x256_1_1_0_0_n_n.lhsBatch by decide), dif_pos (show (0 : Fin S1x1030.rank) ∈ dot_S1x1030_S256x1030_S1x256_1_1_0_0_n_n.lhsNonContracting by decide)]
  rfl
/-- … and runs along the contracted axis; … -/
theorem lhs_in_1 (i : S1x256.Idx) (c : dot_S1x1030_S256x1030_S1x256_1_1_0_0_n_n.contr.Idx) :
    (dot_S1x1030_S256x1030_S1x256_1_1_0_0_n_n.lhsIdx i c 1).val = (c ⟨0, by decide⟩).val :=
  dot_S1x1030_S256x1030_S1x256_1_1_0_0_n_n.lhsIdx_val_of_single rfl i c
/-- … its right operand's row is the result's column … -/
theorem rhs_in_0 (i : S1x256.Idx) (c : dot_S1x1030_S256x1030_S1x256_1_1_0_0_n_n.contr.Idx) :
    (dot_S1x1030_S256x1030_S1x256_1_1_0_0_n_n.rhsIdx i c 0).val = (i 1).val := by
  unfold DotDims.rhsIdx
  rw [dif_neg (show ¬(0 : Fin S256x1030.rank) ∈ dot_S1x1030_S256x1030_S1x256_1_1_0_0_n_n.rhsBatch by decide), dif_pos (show (0 : Fin S256x1030.rank) ∈ dot_S1x1030_S256x1030_S1x256_1_1_0_0_n_n.rhsNonContracting by decide)]
  rfl
/-- … and it too runs along the contracted axis. -/
theorem rhs_in_1 (i : S1x256.Idx) (c : dot_S1x1030_S256x1030_S1x256_1_1_0_0_n_n.contr.Idx) :
    (dot_S1x1030_S256x1030_S1x256_1_1_0_0_n_n.rhsIdx i c 1).val = (c ⟨0, by decide⟩).val :=
  dot_S1x1030_S256x1030_S1x256_1_1_0_0_n_n.rhsIdx_val_of_single rfl i c

/-- The hidden-side product's operand indices likewise. -/
theorem lhs_hid_0 (i : S1x256.Idx) (c : dot_S1x4096_S256x4096_S1x256_1_1_0_0_n_n.contr.Idx) :
    (dot_S1x4096_S256x4096_S1x256_1_1_0_0_n_n.lhsIdx i c 0).val = (i 0).val := by
  unfold DotDims.lhsIdx
  rw [dif_neg (show ¬(0 : Fin S1x4096.rank) ∈ dot_S1x4096_S256x4096_S1x256_1_1_0_0_n_n.lhsBatch by decide), dif_pos (show (0 : Fin S1x4096.rank) ∈ dot_S1x4096_S256x4096_S1x256_1_1_0_0_n_n.lhsNonContracting by decide)]
  rfl
theorem lhs_hid_1 (i : S1x256.Idx) (c : dot_S1x4096_S256x4096_S1x256_1_1_0_0_n_n.contr.Idx) :
    (dot_S1x4096_S256x4096_S1x256_1_1_0_0_n_n.lhsIdx i c 1).val = (c ⟨0, by decide⟩).val :=
  dot_S1x4096_S256x4096_S1x256_1_1_0_0_n_n.lhsIdx_val_of_single rfl i c
theorem rhs_hid_0 (i : S1x256.Idx) (c : dot_S1x4096_S256x4096_S1x256_1_1_0_0_n_n.contr.Idx) :
    (dot_S1x4096_S256x4096_S1x256_1_1_0_0_n_n.rhsIdx i c 0).val = (i 1).val := by
  unfold DotDims.rhsIdx
  rw [dif_neg (show ¬(0 : Fin S256x4096.rank) ∈ dot_S1x4096_S256x4096_S1x256_1_1_0_0_n_n.rhsBatch by decide), dif_pos (show (0 : Fin S256x4096.rank) ∈ dot_S1x4096_S256x4096_S1x256_1_1_0_0_n_n.rhsNonContracting by decide)]
  rfl
theorem rhs_hid_1 (i : S1x256.Idx) (c : dot_S1x4096_S256x4096_S1x256_1_1_0_0_n_n.contr.Idx) :
    (dot_S1x4096_S256x4096_S1x256_1_1_0_0_n_n.rhsIdx i c 1).val = (c ⟨0, by decide⟩).val :=
  dot_S1x4096_S256x4096_S1x256_1_1_0_0_n_n.rhsIdx_val_of_single rfl i c

/-! ## A block product at a column -/

/-- The product of a 1 × 1030 row with a 256 × 1030 slab, contracting the long axis of both, into the zero
    accumulator: at column `q` the inner product of the row with the slab's row `q`. -/
theorem matmul_in_apply (row : FVec Ideal S1x1030 .bf16) (slab : FVec Ideal S256x1030 .bf16) (q : Fin 256) :
    matmul dot_S1x1030_S256x1030_S1x256_1_1_0_0_n_n none row slab (constant (F := Ideal) S1x256 .f32 0x00000000#32)
        (ix2 (0 : Fin 1) q)
      = ∑ k : Fin 1030, row (ix2 (0 : Fin 1) k) * slab (ix2 q k) := by
  simp only [matmul]
  rw [Ideal.matmul_constant_zero_apply, ← Equiv.sum_comp (ValueIdx.contrEquiv1 dot_S1x1030_S256x1030_S1x256_1_1_0_0_n_n 1030 rfl rfl).symm]
  refine Finset.sum_congr rfl fun k _ => ?_
  have hk := ValueIdx.contrEquiv1_symm_val dot_S1x1030_S256x1030_S1x256_1_1_0_0_n_n 1030 rfl rfl k
  have el : dot_S1x1030_S256x1030_S1x256_1_1_0_0_n_n.lhsIdx (ix2 (0 : Fin 1) q) ((ValueIdx.contrEquiv1 dot_S1x1030_S256x1030_S1x256_1_1_0_0_n_n 1030 rfl rfl).symm k) = ix2 (0 : Fin 1) k := funext fun a => Fin.ext (by
    match a with
    | ⟨0, _⟩ => exact lhs_in_0 _ _
    | ⟨1, _⟩ => exact (lhs_in_1 _ _).trans hk)
  have er : dot_S1x1030_S256x1030_S1x256_1_1_0_0_n_n.rhsIdx (ix2 (0 : Fin 1) q) ((ValueIdx.contrEquiv1 dot_S1x1030_S256x1030_S1x256_1_1_0_0_n_n 1030 rfl rfl).symm k) = ix2 q k := funext fun a => Fin.ext (by
    match a with
    | ⟨0, _⟩ => exact rhs_in_0 _ _
    | ⟨1, _⟩ => exact (rhs_in_1 _ _).trans hk)
  rw [el, er]

/-- The same for a 1 × 4096 row and a 256 × 4096 slab. -/
theorem matmul_hid_apply (row : FVec Ideal S1x4096 .bf16) (slab : FVec Ideal S256x4096 .bf16) (q : Fin 256) :
    matmul dot_S1x4096_S256x4096_S1x256_1_1_0_0_n_n none row slab (constant (F := Ideal) S1x256 .f32 0x00000000#32)
        (ix2 (0 : Fin 1) q)
      = ∑ k : Fin 4096, row (ix2 (0 : Fin 1) k) * slab (ix2 q k) := by
  simp only [matmul]
  rw [Ideal.matmul_constant_zero_apply, ← Equiv.sum_comp (ValueIdx.contrEquiv1 dot_S1x4096_S256x4096_S1x256_1_1_0_0_n_n 4096 rfl rfl).symm]
  refine Finset.sum_congr rfl fun k _ => ?_
  have hk := ValueIdx.contrEquiv1_symm_val dot_S1x4096_S256x4096_S1x256_1_1_0_0_n_n 4096 rfl rfl k
  have el : dot_S1x4096_S256x4096_S1x256_1_1_0_0_n_n.lhsIdx (ix2 (0 : Fin 1) q) ((ValueIdx.contrEquiv1 dot_S1x4096_S256x4096_S1x256_1_1_0_0_n_n 4096 rfl rfl).symm k) = ix2 (0 : Fin 1) k := funext fun a => Fin.ext (by
    match a with
    | ⟨0, _⟩ => exact lhs_hid_0 _ _
    | ⟨1, _⟩ => exact (lhs_hid_1 _ _).trans hk)
  have er : dot_S1x4096_S256x4096_S1x256_1_1_0_0_n_n.rhsIdx (ix2 (0 : Fin 1) q) ((ValueIdx.contrEquiv1 dot_S1x4096_S256x4096_S1x256_1_1_0_0_n_n 4096 rfl rfl).symm k) = ix2 q k := funext fun a => Fin.ext (by
    match a with
    | ⟨0, _⟩ => exact rhs_hid_0 _ _
    | ⟨1, _⟩ => exact (rhs_hid_1 _ _).trans hk)
  rw [el, er]

/-! ## The loads, the layout operations and the bias slices at an index -/

/-- Two zero offsets, however spelt. -/
theorem hz2 : (![0, 0] : Fin 2 → Nat) = fun _ => 0 := funext fun a => by fin_cases a <;> rfl

/-- Gate 0's slab of the input weights, loaded, at `(0, q, k)` is the block at `(0, q, k)`; … -/
theorem ld_rI0_apply (x4 : Vec Ideal S3x256x1030 .f32) (q : Fin 256) (k : Fin 1030) :
    View.ld x4 rI0 (ix3 (0 : Fin 1) q k) = x4 (ix3 (0 : Fin 3) q k) := by
  show x4 _ = x4 _
  refine congrArg x4 (funext fun a => Fin.ext ?_)
  match a with
  | ⟨0, _⟩ => rfl
  | ⟨1, _⟩ => show 0 + 1 * q.val = q.val; omega
  | ⟨2, _⟩ => show 0 + 1 * k.val = k.val; omega
/-- … gate 1's the block at `(1, q, k)`; … -/
theorem ld_rI1_apply (x4 : Vec Ideal S3x256x1030 .f32) (q : Fin 256) (k : Fin 1030) :
    View.ld x4 rI1 (ix3 (0 : Fin 1) q k) = x4 (ix3 (1 : Fin 3) q k) := by
  show x4 _ = x4 _
  refine congrArg x4 (funext fun a => Fin.ext ?_)
  match a with
  | ⟨0, _⟩ => rfl
  | ⟨1, _⟩ => show 0 + 1 * q.val = q.val; omega
  | ⟨2, _⟩ => show 0 + 1 * k.val = k.val; omega
/-- … gate 2's the block at `(2, q, k)`. -/
theorem ld_rI2_apply (x4 : Vec Ideal S3x256x1030 .f32) (q : Fin 256) (k : Fin 1030) :
    View.ld x4 rI2 (ix3 (0 : Fin 1) q k) = x4 (ix3 (2 : Fin 3) q k) := by
  show x4 _ = x4 _
  refine congrArg x4 (funext fun a => Fin.ext ?_)
  match a with
  | ⟨0, _⟩ => rfl
  | ⟨1, _⟩ => show 0 + 1 * q.val = q.val; omega
  | ⟨2, _⟩ => show 0 + 1 * k.val = k.val; omega
/-- The hidden weights' three slabs likewise. -/
theorem ld_rH0_apply (x6 : Vec Ideal S3x256x4096 .f32) (q : Fin 256) (k : Fin 4096) :
    View.ld x6 rH0 (ix3 (0 : Fin 1) q k) = x6 (ix3 (0 : Fin 3) q k) := by
  show x6 _ = x6 _
  refine congrArg x6 (funext fun a => Fin.ext ?_)
  match a with
  | ⟨0, _⟩ => rfl
  | ⟨1, _⟩ => show 0 + 1 * q.val = q.val; omega
  | ⟨2, _⟩ => show 0 + 1 * k.val = k.val; omega
theorem ld_rH1_apply (x6 : Vec Ideal S3x256x4096 .f32) (q : Fin 256) (k : Fin 4096) :
    View.ld x6 rH1 (ix3 (0 : Fin 1) q k) = x6 (ix3 (1 : Fin 3) q k) := by
  show x6 _ = x6 _
  refine congrArg x6 (funext fun a => Fin.ext ?_)
  match a with
  | ⟨0, _⟩ => rfl
  | ⟨1, _⟩ => show 0 + 1 * q.val = q.val; omega
  | ⟨2, _⟩ => show 0 + 1 * k.val = k.val; omega
theorem ld_rH2_apply (x6 : Vec Ideal S3x256x4096 .f32) (q : Fin 256) (k : Fin 4096) :
    View.ld x6 rH2 (ix3 (0 : Fin 1) q k) = x6 (ix3 (2 : Fin 3) q k) := by
  show x6 _ = x6 _
  refine congrArg x6 (funext fun a => Fin.ext ?_)
  match a with
  | ⟨0, _⟩ => rfl
  | ⟨1, _⟩ => show 0 + 1 * q.val = q.val; omega
  | ⟨2, _⟩ => show 0 + 1 * k.val = k.val; omega

/-- Row `0` of the 3 × 256 biases, cut out as a 1 × 256 row, at column `q`; … -/
theorem bias0_apply (b : FVec Ideal S3x256 .f32) (q : Fin 256) :
    extractStridedSlice S1x256 ![0, 0] b slices_S3x256_o0_0_S1x256 (ix2 (0 : Fin 1) q) = b (ix2 (0 : Fin 3) q) :=
  slice2_axis0_apply 0 b slices_S3x256_o0_0_S1x256 (0 : Fin 1) q (0 : Fin 3) rfl
/-- … row `1`; … -/
theorem bias1_apply (b : FVec Ideal S3x256 .f32) (q : Fin 256) :
    extractStridedSlice S1x256 ![1, 0] b slices_S3x256_o1_0_S1x256 (ix2 (0 : Fin 1) q) = b (ix2 (1 : Fin 3) q) :=
  slice2_axis0_apply 1 b slices_S3x256_o1_0_S1x256 (0 : Fin 1) q (1 : Fin 3) rfl
/-- … row `2`. -/
theorem bias2_apply (b : FVec Ideal S3x256 .f32) (q : Fin 256) :
    extractStridedSlice S1x256 ![2, 0] b slices_S3x256_o2_0_S1x256 (ix2 (0 : Fin 1) q) = b (ix2 (2 : Fin 3) q) :=
  slice2_axis0_apply 2 b slices_S3x256_o2_0_S1x256 (0 : Fin 1) q (2 : Fin 3) rfl

/-- A 1 × 256 × 1030 slab viewed 256 × 1030 and narrowed (the identity on extended reals), at `(q, k)`. -/
theorem slab_in_apply (v : Vec Ideal S1x256x1030 .f32) (q : Fin 256) (k : Fin 1030) :
    (truncf .bf16 (shapeCast S256x1030 v shapeCasts_S1x256x1030_S256x1030) bitsLt_bf16_f32 : FVec Ideal S256x1030 .bf16) (ix2 q k)
      = v (ix3 (0 : Fin 1) q k) :=
  shapeCast_1ab_ab_apply v shapeCasts_S1x256x1030_S256x1030 q k
/-- A 1 × 256 × 4096 slab viewed 256 × 4096 and narrowed, at `(q, k)`. -/
theorem slab_hid_apply (v : Vec Ideal S1x256x4096 .f32) (q : Fin 256) (k : Fin 4096) :
    (truncf .bf16 (shapeCast S256x4096 v shapeCasts_S1x256x4096_S256x4096) bitsLt_bf16_f32 : FVec Ideal S256x4096 .bf16) (ix2 q k)
      = v (ix3 (0 : Fin 1) q k) :=
  shapeCast_1ab_ab_apply v shapeCasts_S1x256x4096_S256x4096 q k

/-! ## The payloads at a column -/

/-- The narrowed joined row is the joined row: the identity cast of the embedding row and the format change drop out. -/
theorem pay2_apply (v0 : Vec Ideal S1x1024 .f32) (v2 : Vec Ideal S1x6 .f32) (k : Fin 1030) :
    k0_pay2 (F := Ideal) v0 v2 (ix2 (0 : Fin 1) k)
      = (concatenate S1x1030 1 [⟨S1x1024, v0⟩, ⟨S1x6, v2⟩] concatenates_S1x1024_S1x6_S1x1030_d1 : FVec Ideal S1x1030 .f32)
          (ix2 (0 : Fin 1) k) := by
  unfold k0_pay2
  rw [shapeCast_self]
  rfl

/-- The identity cast of the biases drops out. -/
theorem pay4_eq (v8 : Vec Ideal S3x256 .f32) : k0_pay4 (F := Ideal) v8 = v8 := by
  unfold k0_pay4
  exact shapeCast_self v8 _
theorem pay5_eq (v10 : Vec Ideal S3x256 .f32) : k0_pay5 (F := Ideal) v10 = v10 := by
  unfold k0_pay5
  exact shapeCast_self v10 _

/-- The narrowed previous hidden row is the row. -/
theorem pay3_apply (v5 : Vec Ideal S1x4096 .f32) (k : Fin 4096) :
    k0_pay3 (F := Ideal) v5 (ix2 (0 : Fin 1) k) = v5 (ix2 (0 : Fin 1) k) := rfl

/-- Gate 0's hidden slab viewed 256 × 4096, at `(q, k)`. -/
theorem pay9_apply (v30 : Vec Ideal S1x256x4096 .f32) (q : Fin 256) (k : Fin 4096) :
    k0_pay9 (F := Ideal) v30 (ix2 q k) = v30 (ix3 (0 : Fin 1) q k) := by
  unfold k0_pay9
  exact shapeCast_1ab_ab_apply v30 shapeCasts_S1x256x4096_S256x4096 q k

/-- Gate 0's input-side pre-activation at column `q`. -/
theorem pay6_apply (v0 : Vec Ideal S1x1024 .f32) (v2 : Vec Ideal S1x6 .f32) (v8 : Vec Ideal S3x256 .f32)
    (v12 : Vec Ideal S1x256x1030 .f32) (q : Fin 256) :
    k0_pay6 (F := Ideal) v0 v2 v8 v12 (ix2 (0 : Fin 1) q)
      = GruCell.pre (fun k : Fin 1030 => (concatenate S1x1030 1 [⟨S1x1024, v0⟩, ⟨S1x6, v2⟩] concatenates_S1x1024_S1x6_S1x1030_d1 : FVec Ideal S1x1030 .f32) (ix2 (0 : Fin 1) k))
          (fun k : Fin 1030 => v12 (ix3 (0 : Fin 1) q k)) (v8 (ix2 (0 : Fin 3) q)) := by
  unfold k0_pay6 GruCell.pre
  rw [pay4_eq]
  refine (addf_apply _ _ _).trans ?_
  rw [matmul_in_apply, bias0_apply]
  refine congrArg (· + v8 (ix2 (0 : Fin 3) q)) (Finset.sum_congr rfl fun k _ => ?_)
  rw [pay2_apply, slab_in_apply]
/-- Gate 1's. -/
theorem pay7_apply (v0 : Vec Ideal S1x1024 .f32) (v2 : Vec Ideal S1x6 .f32) (v8 : Vec Ideal S3x256 .f32)
    (v18 : Vec Ideal S1x256x1030 .f32) (q : Fin 256) :
    k0_pay7 (F := Ideal) v0 v2 v8 v18 (ix2 (0 : Fin 1) q)
      = GruCell.pre (fun k : Fin 1030 => (concatenate S1x1030 1 [⟨S1x1024, v0⟩, ⟨S1x6, v2⟩] concatenates_S1x1024_S1x6_S1x1030_d1 : FVec Ideal S1x1030 .f32) (ix2 (0 : Fin 1) k))
          (fun k : Fin 1030 => v18 (ix3 (0 : Fin 1) q k)) (v8 (ix2 (1 : Fin 3) q)) := by
  unfold k0_pay7 GruCell.pre
  rw [pay4_eq]
  refine (addf_apply _ _ _).trans ?_
  rw [matmul_in_apply, bias1_apply]
  refine congrArg (· + v8 (ix2 (1 : Fin 3) q)) (Finset.sum_congr rfl fun k _ => ?_)
  rw [pay2_apply, slab_in_apply]
/-- Gate 2's. -/
theorem pay8_apply (v0 : Vec Ideal S1x1024 .f32) (v2 : Vec Ideal S1x6 .f32) (v8 : Vec Ideal S3x256 .f32)
    (v24 : Vec Ideal S1x256x1030 .f32) (q : Fin 256) :
    k0_pay8 (F := Ideal) v0 v2 v8 v24 (ix2 (0 : Fin 1) q)
      = GruCell.pre (fun k : Fin 1030 => (concatenate S1x1030 1 [⟨S1x1024, v0⟩, ⟨S1x6, v2⟩] concatenates_S1x1024_S1x6_S1x1030_d1 : FVec Ideal S1x1030 .f32) (ix2 (0 : Fin 1) k))
          (fun k : Fin 1030 => v24 (ix3 (0 : Fin 1) q k)) (v8 (ix2 (2 : Fin 3) q)) := by
  unfold k0_pay8 GruCell.pre
  rw [pay4_eq]
  refine (addf_apply _ _ _).trans ?_
  rw [matmul_in_apply, bias2_apply]
  refine congrArg (· + v8 (ix2 (2 : Fin 3) q)) (Finset.sum_congr rfl fun k _ => ?_)
  rw [pay2_apply, slab_in_apply]

/-- Gate 0's hidden-side pre-activation at column `q`, its slab already viewed 256 × 4096. -/
theorem hid0_apply (v6 : FVec Ideal S1x4096 .bf16) (v11 : FVec Ideal S3x256 .f32) (v31 : FVec Ideal S256x4096 .f32) (q : Fin 256) :
    addf (matmul dot_S1x4096_S256x4096_S1x256_1_1_0_0_n_n none v6 (truncf .bf16 v31 bitsLt_bf16_f32 : FVec Ideal S256x4096 .bf16)
            (constant (F := Ideal) S1x256 .f32 0x00000000#32))
        (extractStridedSlice S1x256 ![0, 0] v11 slices_S3x256_o0_0_S1x256) (ix2 (0 : Fin 1) q)
      = GruCell.pre (fun k : Fin 4096 => v6 (ix2 (0 : Fin 1) k)) (fun k : Fin 4096 => v31 (ix2 q k)) (v11 (ix2 (0 : Fin 3) q)) := by
  unfold GruCell.pre
  refine (addf_apply _ _ _).trans ?_
  rw [matmul_hid_apply, bias0_apply]
  rfl
/-- Gate 1's, from its loaded slab. -/
theorem hid1_apply (v6 : FVec Ideal S1x4096 .bf16) (v11 : FVec Ideal S3x256 .f32) (v36 : Vec Ideal S1x256x4096 .f32) (q : Fin 256) :
    addf (matmul dot_S1x4096_S256x4096_S1x256_1_1_0_0_n_n none v6
            (truncf .bf16 (shapeCast S256x4096 v36 shapeCasts_S1x256x4096_S256x4096) bitsLt_bf16_f32 : FVec Ideal S256x4096 .bf16)
            (constant (F := Ideal) S1x256 .f32 0x00000000#32))
        (extractStridedSlice S1x256 ![1, 0] v11 slices_S3x256_o1_0_S1x256) (ix2 (0 : Fin 1) q)
      = GruCell.pre (fun k : Fin 4096 => v6 (ix2 (0 : Fin 1) k)) (fun k : Fin 4096 => v36 (ix3 (0 : Fin 1) q k)) (v11 (ix2 (1 : Fin 3) q)) := by
  unfold GruCell.pre
  refine (addf_apply _ _ _).trans ?_
  rw [matmul_hid_apply, bias1_apply]
  refine congrArg (· + v11 (ix2 (1 : Fin 3) q)) (Finset.sum_congr rfl fun k _ => ?_)
  rw [slab_hid_apply]
/-- Gate 2's. -/
theorem hid2_apply (v6 : FVec Ideal S1x4096 .bf16) (v11 : FVec Ideal S3x256 .f32) (v42 : Vec Ideal S1x256x4096 .f32) (q : Fin 256) :
    addf (matmul dot_S1x4096_S256x4096_S1x256_1_1_0_0_n_n none v6
            (truncf .bf16 (shapeCast S256x4096 v42 shapeCasts_S1x256x4096_S256x4096) bitsLt_bf16_f32 : FVec Ideal S256x4096 .bf16)
            (constant (F := Ideal) S1x256 .f32 0x00000000#32))
        (extractStridedSlice S1x256 ![2, 0] v11 slices_S3x256_o2_0_S1x256) (ix2 (0 : Fin 1) q)
      = GruCell.pre (fun k : Fin 4096 => v6 (ix2 (0 : Fin 1) k)) (fun k : Fin 4096 => v42 (ix3 (0 : Fin 1) q k)) (v11 (ix2 (2 : Fin 3) q)) := by
  unfold GruCell.pre
  refine (addf_apply _ _ _).trans ?_
  rw [matmul_hid_apply, bias2_apply]
  refine congrArg (· + v11 (ix2 (2 : Fin 3) q)) (Finset.sum_congr rfl fun k _ => ?_)
  rw [slab_hid_apply]

/-- The stored value at column `q` from the values read before it: the cell's formula over the three input-side
    pre-activations (given) and the three hidden-side ones (formed here), with the constant one's word. -/
theorem pay1_apply (v6 : FVec Ideal S1x4096 .bf16) (v7 : Vec Ideal S1x256 .f32) (v11 : FVec Ideal S3x256 .f32)
    (v17 v23 v29 : FVec Ideal S1x256 .f32) (v31 : FVec Ideal S256x4096 .f32) (v36 v42 : Vec Ideal S1x256x4096 .f32) (q : Fin 256) :
    k0_pay1 (F := Ideal) v6 v7 v11 v17 v23 v29 v31 v36 v42 (ix2 (0 : Fin 1) q)
      = (GruCell.one - Ideal.logistic (v23 (ix2 (0 : Fin 1) q)
            + GruCell.pre (fun k : Fin 4096 => v6 (ix2 (0 : Fin 1) k)) (fun k : Fin 4096 => v36 (ix3 (0 : Fin 1) q k)) (v11 (ix2 (1 : Fin 3) q))))
          * Ideal.tanh (v29 (ix2 (0 : Fin 1) q)
              + Ideal.logistic (v17 (ix2 (0 : Fin 1) q)
                  + GruCell.pre (fun k : Fin 4096 => v6 (ix2 (0 : Fin 1) k)) (fun k : Fin 4096 => v31 (ix2 q k)) (v11 (ix2 (0 : Fin 3) q)))
                * GruCell.pre (fun k : Fin 4096 => v6 (ix2 (0 : Fin 1) k)) (fun k : Fin 4096 => v42 (ix3 (0 : Fin 1) q k)) (v11 (ix2 (2 : Fin 3) q)))
        + Ideal.logistic (v23 (ix2 (0 : Fin 1) q)
            + GruCell.pre (fun k : Fin 4096 => v6 (ix2 (0 : Fin 1) k)) (fun k : Fin 4096 => v36 (ix3 (0 : Fin 1) q k)) (v11 (ix2 (1 : Fin 3) q)))
          * v7 (ix2 (0 : Fin 1) q) := by
  rw [← hid0_apply v6 v11 v31 q, ← hid1_apply v6 v11 v36 q, ← hid2_apply v6 v11 v42 q]
  rfl

/-! ## The stored row at a column -/

/-- THE TILE AT A COLUMN: the value the body stores at column `q` is the cell's new value for the hidden unit whose
    weight rows are row `q` of each gate's slab, from the joined input row and the previous hidden row. -/
theorem tile_cell (x0 : Vec Ideal S1x1024 .f32) (x1 : Vec Ideal S1x6 .f32) (x2 : Vec Ideal S1x4096 .f32) (x3 : Vec Ideal S1x256 .f32)
    (x4 : Vec Ideal S3x256x1030 .f32) (x5 : Vec Ideal S3x256 .f32) (x6 : Vec Ideal S3x256x4096 .f32) (x7 : Vec Ideal S3x256 .f32)
    (q : Fin 256) :
    tile (F := Ideal) x0 x1 x2 x3 x4 x5 x6 x7 (ValueIdx.ix2 (0 : Fin 1) q)
      = GruCell.cell (fun k : Fin 1030 => (concatenate S1x1030 1 [⟨S1x1024, x0⟩, ⟨S1x6, x1⟩] concatenates_S1x1024_S1x6_S1x1030_d1 : FVec Ideal S1x1030 .f32) (ValueIdx.ix2 0 k))
          (fun k : Fin 4096 => x2 (ValueIdx.ix2 0 k))
          (fun g k => x4 (ValueIdx.ix3 g q k)) (fun g => x5 (ValueIdx.ix2 g q))
          (fun g k => x6 (ValueIdx.ix3 g q k)) (fun g => x7 (ValueIdx.ix2 g q))
          (x3 (ValueIdx.ix2 0 q)) := by
  unfold tile
  rw [pay1_apply, pay6_apply, pay7_apply, pay8_apply, pay5_eq]
  rw [View.ld_unit_zero (S := S1x1024) hz2, View.ld_unit_zero (S := S1x6) hz2, View.ld_unit_zero (S := S1x4096) hz2,
    View.ld_unit_zero (S := S1x256) hz2, View.ld_unit_zero (S := S3x256) hz2, View.ld_unit_zero (S := S3x256) hz2]
  simp only [pay3_apply, pay9_apply]
  rw [show (fun k : Fin 1030 => View.ld x4 rI0 (ix3 (0 : Fin 1) q k)) = fun k => x4 (ix3 (0 : Fin 3) q k) from
        funext fun k => ld_rI0_apply x4 q k,
    show (fun k : Fin 1030 => View.ld x4 rI1 (ix3 (0 : Fin 1) q k)) = fun k => x4 (ix3 (1 : Fin 3) q k) from
        funext fun k => ld_rI1_apply x4 q k,
    show (fun k : Fin 1030 => View.ld x4 rI2 (ix3 (0 : Fin 1) q k)) = fun k => x4 (ix3 (2 : Fin 3) q k) from
        funext fun k => ld_rI2_apply x4 q k,
    show (fun k : Fin 4096 => View.ld x6 rH0 (ix3 (0 : Fin 1) q k)) = fun k => x6 (ix3 (0 : Fin 3) q k) from
        funext fun k => ld_rH0_apply x6 q k,
    show (fun k : Fin 4096 => View.ld x6 rH1 (ix3 (0 : Fin 1) q k)) = fun k => x6 (ix3 (1 : Fin 3) q k) from
        funext fun k => ld_rH1_apply x6 q k,
    show (fun k : Fin 4096 => View.ld x6 rH2 (ix3 (0 : Fin 1) q k)) = fun k => x6 (ix3 (2 : Fin 3) q k) from
        funext fun k => ld_rH2_apply x6 q k]
  rfl

end Cert.KernelIdeal.Hand

end
-- ==== Proof.RunKI.lean ====
/-
  The whole run of the recurrent-cell program, from the body obligation.

  At the region's entry the array of the previous hidden row, which two windows stage, is dealt in two halves, one per
  window; every other array goes whole to its one window.  At the exit the halves are joined.  The exit contents are
  the entry contents but for the result array, which holds what the sixteen write-backs made of it.  Read at the
  arguments, the run's post says each is as launched: an argument some window stages is an input array, never written;
  the others are touched by no host line and by no window.
-/
import proofs.«409868_j40724879901195_3_alg».proof.Proof.FrameKI

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The shared array dealt and joined -/

/-- The eight distinct arrays behind the nine windows, one by one. -/
theorem arrBufs_chain (c : Dev nD) (Vb : (b : Ref sig .tc) → Buf (Elt F) ((c.tc : Thread nD τ).loc b)) :
    (Pipeline.arrBufs (Ix := Unit) (Name := ℕ) (U := UR sig nD τ) (Lvl := ℕ) spec0 c Vb : sProp 𝕄)
      = iprop((((c : Thread nD τ).loc main_v7) ↦{fullShare} Vb main_v7) ∗ (((c : Thread nD τ).loc main_arg2) ↦{fullShare} Vb main_arg2)
          ∗ (((c : Thread nD τ).loc main_arg1) ↦{fullShare} Vb main_arg1) ∗ (((c : Thread nD τ).loc main_v8) ↦{fullShare} Vb main_v8)
          ∗ (((c : Thread nD τ).loc main_v10) ↦{fullShare} Vb main_v10) ∗ (((c : Thread nD τ).loc main_v9) ↦{fullShare} Vb main_v9)
          ∗ (((c : Thread nD τ).loc main_v11) ↦{fullShare} Vb main_v11) ∗ (((c : Thread nD τ).loc main_v12) ↦{fullShare} Vb main_v12)) := by
  unfold Pipeline.arrBufs
  exact bigSep_eq_bigSepL_of_eq [main_v7, main_arg2, main_arg1, main_v8, main_v10, main_v9, main_v11, main_v12] (by decide) (by decide) _

/-- The nine windows' holdings, one by one: the previous hidden row by halves, every other array whole. -/
theorem arrays_chain (c : Dev nD) (W : Valuation τ sig (Elt F)) :
    ((dats m 0 c).arrays (fun w => W (Proc.devRef .tc (Pipeline.arrRef spec0 w))) : sProp 𝕄)
      = iprop((((c : Thread nD τ).loc main_v7) ↦{fullShare} W (Proc.devRef .tc main_v7)) ∗ (((c : Thread nD τ).loc main_arg2) ↦{fullShare} W (Proc.devRef .tc main_arg2))
          ∗ (((c : Thread nD τ).loc main_arg1) ↦{fullShare.left} W (Proc.devRef .tc main_arg1)) ∗ (((c : Thread nD τ).loc main_arg1) ↦{fullShare.right} W (Proc.devRef .tc main_arg1))
          ∗ (((c : Thread nD τ).loc main_v8) ↦{fullShare} W (Proc.devRef .tc main_v8)) ∗ (((c : Thread nD τ).loc main_v10) ↦{fullShare} W (Proc.devRef .tc main_v10))
          ∗ (((c : Thread nD τ).loc main_v9) ↦{fullShare} W (Proc.devRef .tc main_v9)) ∗ (((c : Thread nD τ).loc main_v11) ↦{fullShare} W (Proc.devRef .tc main_v11))
          ∗ (((c : Thread nD τ).loc main_v12) ↦{fullShare} W (Proc.devRef .tc main_v12))) := by
  unfold Dat.arrays
  rw [bigSep_W0]
  rw [(arr_whole0 0).set_eq_univ, (arr_whole0 1).set_eq_univ, (arr_whole0 2).set_eq_univ, (arr_whole0 4).set_eq_univ,
    (arr_whole0 5).set_eq_univ, (arr_whole0 6).set_eq_univ, (arr_whole0 7).set_eq_univ, (arr_whole0 8).set_eq_univ]
  rfl

theorem hsplit (c : Dev nD) (W : Valuation τ sig (Elt F))
    (F' : (w : Fin cfg0.W) → Buf (Elt F) ((spec0 w).arr.view.loc (c.tc : Thread nD τ)))
    (hF : ∀ w, F' w = W (Proc.devRef .tc (Pipeline.arrRef spec0 w))) :
    (Pipeline.arrBufs (Ix := Unit) (Name := ℕ) (U := UR sig nD τ) (Lvl := ℕ) spec0 c (fun b => W (Proc.devRef .tc b)) : sProp 𝕄) ⊢ (dats m 0 c).arrays F' := by
  obtain rfl : F' = fun w => W (Proc.devRef .tc (Pipeline.arrRef spec0 w)) := funext hF
  rw [arrBufs_chain, arrays_chain]
  iintro ⟨H0, H1, H2, H4, H5, H6, H7, H8⟩
  ihave H23 := (pointsTo_share (PosShare.mem_left_op_right fullShare)).1 $$ H2
  icases H23 with ⟨H2, H3⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem hjoin (c : Dev nD) (W : Valuation τ sig (Elt F))
    (F' : (w : Fin cfg0.W) → Buf (Elt F) ((spec0 w).arr.view.loc (c.tc : Thread nD τ)))
    (hF : ∀ w, F' w = W (Proc.devRef .tc (Pipeline.arrRef spec0 w))) :
    (dats m 0 c).arrays F' ⊢ (Pipeline.arrBufs (Ix := Unit) (Name := ℕ) (U := UR sig nD τ) (Lvl := ℕ) spec0 c (fun b => W (Proc.devRef .tc b)) : sProp 𝕄) := by
  obtain rfl : F' = fun w => W (Proc.devRef .tc (Pipeline.arrRef spec0 w)) := funext hF
  rw [arrBufs_chain, arrays_chain]
  iintro ⟨H0, H1, H2, H3, H4, H5, H6, H7, H8⟩
  isplitl [H0]; · iexact H0
  isplitl [H1]; · iexact H1
  isplitl [H2 H3]
  · iapply (pointsTo_share (PosShare.mem_left_op_right fullShare)).2
    isplitl [H2]; · iexact H2
    iexact H3
  isplitl [H4]; · iexact H4
  isplitl [H5]; · iexact H5
  isplitl [H6]; · iexact H6
  isplitl [H7]; · iexact H7
  iexact H8

/-! ## The contents at the region's exit -/

/-- The result array at what the write-backs made of it, every other buffer as the region found it. -/
def Wx (c : Dev nD) : Valuation τ sig (Elt F) :=
  Function.update (V₀ m c) (Proc.devRef .tc main_v12) ((dats m 0 c).arrAt 8 cfg0.N)

theorem Wx_arr (c : Dev nD) : ∀ w : Fin 9,
    Wx m c (Proc.devRef .tc (Pipeline.arrRef spec0 w)) = (dats m 0 c).arrAt w cfg0.N := fun
  | 0 => (Function.update_of_ne (StableHlo.devRef_ne_of_ne (by decide)) _ _).trans (((dats m 0 c).arrAt_in 0 rfl _).trans (A_eq m c 0)).symm
  | 1 => (Function.update_of_ne (StableHlo.devRef_ne_of_ne (by decide)) _ _).trans (((dats m 0 c).arrAt_in 1 rfl _).trans (A_eq m c 1)).symm
  | 2 => (Function.update_of_ne (StableHlo.devRef_ne_of_ne (by decide)) _ _).trans (((dats m 0 c).arrAt_in 2 rfl _).trans (A_eq m c 2)).symm
  | 3 => (Function.update_of_ne (StableHlo.devRef_ne_of_ne (by decide)) _ _).trans (((dats m 0 c).arrAt_in 3 rfl _).trans (A_eq m c 3)).symm
  | 4 => (Function.update_of_ne (StableHlo.devRef_ne_of_ne (by decide)) _ _).trans (((dats m 0 c).arrAt_in 4 rfl _).trans (A_eq m c 4)).symm
  | 5 => (Function.update_of_ne (StableHlo.devRef_ne_of_ne (by decide)) _ _).trans (((dats m 0 c).arrAt_in 5 rfl _).trans (A_eq m c 5)).symm
  | 6 => (Function.update_of_ne (StableHlo.devRef_ne_of_ne (by decide)) _ _).trans (((dats m 0 c).arrAt_in 6 rfl _).trans (A_eq m c 6)).symm
  | 7 => (Function.update_of_ne (StableHlo.devRef_ne_of_ne (by decide)) _ _).trans (((dats m 0 c).arrAt_in 7 rfl _).trans (A_eq m c 7)).symm
  | 8 => Function.update_self ..
  | ⟨_ + 9, h⟩ => absurd h (Nat.not_lt.2 (Nat.le_add_left _ _))

theorem Wx_rest (c : Dev nD) (b : Ref sig .tc) (hb : ∀ w, Pipeline.arrRef spec0 w ≠ b) :
    Wx m c (Proc.devRef .tc b) = V₀ m c (Proc.devRef .tc b) :=
  Function.update_of_ne (StableHlo.devRef_ne_of_ne (hb 8).symm) _ _

/-! ## The run -/

set_option backward.isDefEq.respectTransparency.types false in
/-- Every weakly fair execution of @main terminates, faults nowhere, and ends with every window's array at what the
    proof data computes and every other unscoped buffer as the region found it. -/
theorem run_main : θ_run defs (onTc (τ := τ) (main (F := F))) (s₀ m ρ) (Pipeline.SharedPost cfgs (dats m) 0 (Wx m) []) :=
  Pipeline.θ_run_frame_around_shared cfgs (dats m) (0 : Fin 1) defs₀ Variants.none cellOf_inj winFacts₀0 block_pos0 arr_whole0 stage_whole0 m ρ main
    (hbody := fun c => (body_obligation m c).loose) (howed := fun _ _ => rfl) (V₀ := V₀ m) (opss := [])
    (hsub := fun _ h => absurd h List.not_mem_nil) (hfresh := fun _ h => absurd h List.not_mem_nil) (hkeep := fun _ h => absurd h List.not_mem_nil)
    (hmain := hmain m Variants.none) (hsplit := hsplit m) (hjoin := hjoin m) (hA := fun c w => A_eq m c w)
    (Wx := Wx m) (hWx := Wx_arr m) (hWx' := Wx_rest m) (hΦ := fun _ _ => rfl)

/-- The run read at the result and at the arguments: the result array at what the write-backs made of it, every
    argument as launched. -/
theorem run_result : θ_run defs (onTc (τ := τ) (main (F := F))) ⟨m, fun _ => 0, ρ⟩ (fun r => ∀ c : Dev nD,
      r.2.mem ((c.tc : Thread nD τ).loc main_v12) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h' c => by
    have h := fun c => (⟨(h' c).1 8, (h' c).1, (h' c).2⟩ : _ ∧ _ ∧ _)
    exact ⟨(h c).1,
      ((h c).2.2 main_arg0 (Pipeline.mem_restRefs_of main_arg0 (by decide) (by decide))).trans ((Wx_rest m c main_arg0 (by decide)).trans (V_main_arg0 m c)),
      ((h c).2.1 2).trans (((dats m 0 c).arrAt_in 2 rfl _).trans ((A_eq m c 2).trans (V_main_arg1 m c))),
      ((h c).2.1 1).trans (((dats m 0 c).arrAt_in 1 rfl _).trans ((A_eq m c 1).trans (V_main_arg2 m c))),
      ((h c).2.2 main_arg3 (Pipeline.mem_restRefs_of main_arg3 (by decide) (by decide))).trans ((Wx_rest m c main_arg3 (by decide)).trans (V_main_arg3 m c)),
      ((h c).2.2 main_arg4 (Pipeline.mem_restRefs_of main_arg4 (by decide) (by decide))).trans ((Wx_rest m c main_arg4 (by decide)).trans (V_main_arg4 m c)),
      ((h c).2.2 main_arg5 (Pipeline.mem_restRefs_of main_arg5 (by decide) (by decide))).trans ((Wx_rest m c main_arg5 (by decide)).trans (V_main_arg5 m c)),
      ((h c).2.2 main_arg6 (Pipeline.mem_restRefs_of main_arg6 (by decide) (by decide))).trans ((Wx_rest m c main_arg6 (by decide)).trans (V_main_arg6 m c)),
      ((h c).2.2 main_arg7 (Pipeline.mem_restRefs_of main_arg7 (by decide) (by decide))).trans ((Wx_rest m c main_arg7 (by decide)).trans (V_main_arg7 m c))⟩) (run_main m ρ)

/-- The frame: the run ends and every argument is as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2) (run_result m ρ)

end Cert.KernelIdeal.Hand

end
-- ==== Proof.ValueKI.lean ====
/-
  The result array of the recurrent-cell program, index by index.

  Grid point `t` computes hidden units 256 t … 256 t + 255: its tile window on the previous hidden row, its slabs of
  the two weight arrays and of the two bias arrays, and its block of the result all sit at block index `t` along the
  hidden-unit axis, while the embedding row, the goal encoding and the whole previous hidden row are staged at block
  index 0.  So what point `t` stores at local column `q` is the cell's value for unit 256 t + q computed from the rows of
  the arrays the region found, and since the sixteen tiles cover the 4096 units, the result array ends at that value
  at every unit.  Restated over the arguments: the re-laid weights are the packed ones at row 4096 · gate + unit, and
  for a token index in range the looked-up embedding row is the row at the token index.
-/
import proofs.«409868_j40724879901195_3_alg».proof.Proof.EntryKI
import proofs.«409868_j40724879901195_3_alg».proof.Proof.TileCellKI
import proofs.«409868_j40724879901195_3_alg».proof.Proof.RunKI

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-! ## The windows' block indices, decided over the grid -/

theorem index_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = t.val
    ∧ win0_4.index t (0 : Fin 3) = 0 ∧ win0_4.index t (1 : Fin 3) = t.val ∧ win0_4.index t (2 : Fin 3) = 0
    ∧ win0_5.index t (0 : Fin 2) = 0 ∧ win0_5.index t (1 : Fin 2) = t.val
    ∧ win0_6.index t (0 : Fin 3) = 0 ∧ win0_6.index t (1 : Fin 3) = t.val ∧ win0_6.index t (2 : Fin 3) = 0
    ∧ win0_7.index t (0 : Fin 2) = 0 ∧ win0_7.index t (1 : Fin 2) = t.val
    ∧ win0_8.index t (0 : Fin 2) = 0 ∧ win0_8.index t (1 : Fin 2) = t.val :=
  (by decide +kernel : ∀ t : Fin grid0.N, _)

/-- The hidden unit that grid point `t` holds at its local column `q`. -/
def unitOf (t : Fin cfg0.N) (q : Fin 256) : Fin 4096 :=
  ⟨t.val * 256 + q.val, by have h : t.val < 16 := lt_of_lt_of_eq t.isLt N_0; have := q.isLt; omega⟩

theorem unitOf_val (t : Fin cfg0.N) (q : Fin 256) : (unitOf t q).val = t.val * 256 + q.val := rfl

/-! ## Each window's block, in the array's coordinates -/

theorem blk0 (c : Dev nD) (t : Fin cfg0.N) : iblk m c 0 t = V m c main_v7 := by
  funext y
  show V m c main_v7 (((cfg0.win 0).blk t).view.emb y) = V m c main_v7 y
  refine congrArg _ (funext fun a => Fin.ext ?_)
  obtain ⟨e0, e1, -⟩ := index_facts t
  match a with
  | ⟨0, _⟩ => show win0_0.index t (0 : Fin 2) * 1 + 1 * (y 0).val = (y 0).val; omega
  | ⟨1, _⟩ => show win0_0.index t (1 : Fin 2) * 1024 + 1 * (y 1).val = (y 1).val; omega

theorem blk1 (c : Dev nD) (t : Fin cfg0.N) : iblk m c 1 t = V m c main_arg2 := by
  funext y
  show V m c main_arg2 (((cfg0.win 1).blk t).view.emb y) = V m c main_arg2 y
  refine congrArg _ (funext fun a => Fin.ext ?_)
  obtain ⟨-, -, e0, e1, -⟩ := index_facts t
  match a with
  | ⟨0, _⟩ => show win0_1.index t (0 : Fin 2) * 1 + 1 * (y 0).val = (y 0).val; omega
  | ⟨1, _⟩ => show win0_1.index t (1 : Fin 2) * 6 + 1 * (y 1).val = (y 1).val; omega

theorem blk2 (c : Dev nD) (t : Fin cfg0.N) : iblk m c 2 t = V m c main_arg1 := by
  funext y
  show V m c main_arg1 (((cfg0.win 2).blk t).view.emb y) = V m c main_arg1 y
  refine congrArg _ (funext fun a => Fin.ext ?_)
  obtain ⟨-, -, -, -, e0, e1, -⟩ := index_facts t
  match a with
  | ⟨0, _⟩ => show win0_2.index t (0 : Fin 2) * 1 + 1 * (y 0).val = (y 0).val; omega
  | ⟨1, _⟩ => show win0_2.index t (1 : Fin 2) * 4096 + 1 * (y 1).val = (y 1).val; omega

theorem blk3 (c : Dev nD) (t : Fin cfg0.N) (q : Fin 256) : iblk m c 3 t (ix2 0 q) = V m c main_arg1 (ix2 0 (unitOf t q)) := by
  show V m c main_arg1 (((cfg0.win 3).blk t).view.emb (ix2 0 q)) = _
  refine congrArg _ (funext fun a => Fin.ext ?_)
  obtain ⟨-, -, -, -, -, -, e0, e1, -⟩ := index_facts t
  match a with
  | ⟨0, _⟩ => show win0_3.index t (0 : Fin 2) * 1 + 1 * 0 = 0; omega
  | ⟨1, _⟩ => show win0_3.index t (1 : Fin 2) * 256 + 1 * q.val = t.val * 256 + q.val; omega

theorem blk4 (c : Dev nD) (t : Fin cfg0.N) (g : Fin 3) (q : Fin 256) (k : Fin 1030) :
    iblk m c 4 t (ix3 g q k) = V m c main_v8 (ix3 g (unitOf t q) k) := by
  show V m c main_v8 (((cfg0.win 4).blk t).view.emb (ix3 g q k)) = _
  refine congrArg _ (funext fun a => Fin.ext ?_)
  obtain ⟨-, -, -, -, -, -, -, -, e0, e1, e2, -⟩ := index_facts t
  match a with
  | ⟨0, _⟩ => show win0_4.index t (0 : Fin 3) * 3 + 1 * g.val = g.val; omega
  | ⟨1, _⟩ => show win0_4.index t (1 : Fin 3) * 256 + 1 * q.val = t.val * 256 + q.val; omega
  | ⟨2, _⟩ => show win0_4.index t (2 : Fin 3) * 1030 + 1 * k.val = k.val; omega

theorem blk5 (c : Dev nD) (t : Fin cfg0.N) (g : Fin 3) (q : Fin 256) : iblk m c 5 t (ix2 g q) = V m c main_v10 (ix2 g (unitOf t q)) := by
  show V m c main_v10 (((cfg0.win 5).blk t).view.emb (ix2 g q)) = _
  refine congrArg _ (funext fun a => Fin.ext ?_)
  obtain ⟨-, -, -, -, -, -, -, -, -, -, -, e0, e1, -⟩ := index_facts t
  match a with
  | ⟨0, _⟩ => show win0_5.index t (0 : Fin 2) * 3 + 1 * g.val = g.val; omega
  | ⟨1, _⟩ => show win0_5.index t (1 : Fin 2) * 256 + 1 * q.val = t.val * 256 + q.val; omega

theorem blk6 (c : Dev nD) (t : Fin cfg0.N) (g : Fin 3) (q : Fin 256) (k : Fin 4096) :
    iblk m c 6 t (ix3 g q k) = V m c main_v9 (ix3 g (unitOf t q) k) := by
  show V m c main_v9 (((cfg0.win 6).blk t).view.emb (ix3 g q k)) = _
  refine congrArg _ (funext fun a => Fin.ext ?_)
  obtain ⟨-, -, -, -, -, -, -, -, -, -, -, -, -, e0, e1, e2, -⟩ := index_facts t
  match a with
  | ⟨0, _⟩ => show win0_6.index t (0 : Fin 3) * 3 + 1 * g.val = g.val; omega
  | ⟨1, _⟩ => show win0_6.index t (1 : Fin 3) * 256 + 1 * q.val = t.val * 256 + q.val; omega
  | ⟨2, _⟩ => show win0_6.index t (2 : Fin 3) * 4096 + 1 * k.val = k.val; omega

theorem blk7 (c : Dev nD) (t : Fin cfg0.N) (g : Fin 3) (q : Fin 256) : iblk m c 7 t (ix2 g q) = V m c main_v11 (ix2 g (unitOf t q)) := by
  show V m c main_v11 (((cfg0.win 7).blk t).view.emb (ix2 g q)) = _
  refine congrArg _ (funext fun a => Fin.ext ?_)
  obtain ⟨-, -, -, -, -, -, -, -, -, -, -, -, -, -, -, -, e0, e1, -⟩ := index_facts t
  match a with
  | ⟨0, _⟩ => show win0_7.index t (0 : Fin 2) * 3 + 1 * g.val = g.val; omega
  | ⟨1, _⟩ => show win0_7.index t (1 : Fin 2) * 256 + 1 * q.val = t.val * 256 + q.val; omega

/-- Local column `q` of the result's block at point `t` is column 256 t + q of the result. -/
theorem emb8 (t : Fin cfg0.N) (q : Fin 256) : ((cfg0.win 8).blk t).view.emb (ix2 0 q) = ix2 0 (unitOf t q) := by
  refine funext fun a => Fin.ext ?_
  obtain ⟨-, -, -, -, -, -, -, -, -, -, -, -, -, -, -, -, -, -, e0, e1⟩ := index_facts t
  match a with
  | ⟨0, _⟩ => show win0_8.index t (0 : Fin 2) * 1 + 1 * 0 = 0; omega
  | ⟨1, _⟩ => show win0_8.index t (1 : Fin 2) * 256 + 1 * q.val = t.val * 256 + q.val; omega

/-! ## The result array as one function -/

/-- The input row the region finds: the gathered embedding row, then the goal encoding. -/
def rowIn (c : Dev nD) : FVec Ideal S1x1030 .f32 :=
  concatenate S1x1030 1 [⟨S1x1024, V m c main_v7⟩, ⟨S1x6, V m c main_arg2⟩] concatenates_S1x1024_S1x6_S1x1030_d1

/-- Hidden unit `j`'s new value, from the rows of the arrays the region finds. -/
def unitVal (c : Dev nD) (j : Fin 4096) : EReal :=
  GruCell.cell (fun k : Fin 1030 => rowIn m c (ix2 0 k)) (fun k : Fin 4096 => V m c main_arg1 (ix2 0 k))
    (fun g k => V m c main_v8 (ix3 g j k)) (fun g => V m c main_v10 (ix2 g j))
    (fun g k => V m c main_v9 (ix3 g j k)) (fun g => V m c main_v11 (ix2 g j))
    (V m c main_arg1 (ix2 0 j))

/-- The result array: every unit at its new value. -/
def Gfin (c : Dev nD) : S1x4096.Idx → EReal := fun i => unitVal m c (i 1)

theorem hzT : (![0, 0] : Fin 2 → Nat) = fun _ => 0 := funext fun a => by fin_cases a <;> rfl

/-- What point `t` writes back is block `t` of the result array's function. -/
theorem flushed8_eq (c : Dev nD) (t : Fin cfg0.N) :
    (dats m 0 c).flushed 8 t = ((cfg0.win 8).blk t).view.read (Elt Ideal) (Gfin m c) := by
  show (cfg0.win 8).cut (grid0.coords t) ((dats m 0 c).after 8 t) = _
  rw [after8]
  unfold out8
  rw [View.canon_unit_zero hzT]
  funext j
  have hj0 : (j 0).val < 1 := (j 0).isLt
  have hj1 : (j 1).val < 256 := (j 1).isLt
  obtain ⟨q, rfl⟩ : ∃ q : Fin 256, j = ix2 (0 : Fin 1) q :=
    ⟨⟨(j 1).val, hj1⟩, funext fun a => Fin.ext (by
      match a with
      | ⟨0, _⟩ => show (j 0).val = 0; omega
      | ⟨1, _⟩ => rfl)⟩
  show tile (F := Ideal) (iblk m c 0 t) (iblk m c 1 t) (iblk m c 2 t) (iblk m c 3 t) (iblk m c 4 t) (iblk m c 5 t) (iblk m c 6 t) (iblk m c 7 t) (ix2 0 q)
    = Gfin m c (((cfg0.win 8).blk t).view.emb (ix2 0 q))
  rw [emb8]
  refine (tile_cell (iblk m c 0 t) (iblk m c 1 t) (iblk m c 2 t) (iblk m c 3 t) (iblk m c 4 t) (iblk m c 5 t) (iblk m c 6 t) (iblk m c 7 t) q).trans ?_
  show _ = unitVal m c (unitOf t q)
  unfold unitVal rowIn
  rw [blk0, blk1, blk2]
  simp only [blk3, blk4, blk5, blk6, blk7]

/-- An index of the result lies in point `t`'s block iff its coordinates lie in the block's ranges. -/
theorem mem_blk8 (t : Fin cfg0.N) (i : S1x4096.Idx) :
    i ∈ ((cfg0.win 8).blk t).view.set ↔ ∀ a : Fin 2, win0_8.index t a * S1x256.size a ≤ (i a).val ∧ (i a).val < win0_8.index t a * S1x256.size a + S1x256.size a := by
  show i ∈ ((View.whole main_v12).slice (win0_8.rect t)).set ↔ _
  rw [View.set_slice_whole, Rect.mem_set_unit]
  exact Iff.rfl

/-- The sixteen blocks cover the result. -/
theorem cover_result (i : S1x4096.Idx) : ∃ t : Fin cfg0.N, (cfg0.win 8).flush t = true ∧ i ∈ ((cfg0.win 8).blk t).view.set := by
  have hi0 : (i 0).val < 1 := (i 0).isLt
  have hi1 : (i 1).val < 4096 := (i 1).isLt
  refine ⟨⟨(i 1).val / 256, by rw [show cfg0.N = 16 from N_0]; omega⟩, flush0_8 _, ?_⟩
  rw [mem_blk8]
  obtain ⟨-, -, -, -, -, -, -, -, -, -, -, -, -, -, -, -, -, -, e0, e1⟩ := index_facts ⟨(i 1).val / 256, by rw [show cfg0.N = 16 from N_0]; omega⟩
  intro a
  match a with
  | ⟨0, _⟩ => show win0_8.index _ (0 : Fin 2) * 1 ≤ (i 0).val ∧ (i 0).val < win0_8.index _ (0 : Fin 2) * 1 + 1; rw [e0]; omega
  | ⟨1, _⟩ => show win0_8.index _ (1 : Fin 2) * 256 ≤ (i 1).val ∧ (i 1).val < win0_8.index _ (1 : Fin 2) * 256 + 256; rw [e1]; show (i 1).val / 256 * 256 ≤ (i 1).val ∧ (i 1).val < (i 1).val / 256 * 256 + 256; omega

/-- The result array after the run. -/
theorem final8 (c : Dev nD) : (dats m 0 c).arrAt 8 cfg0.N = Gfin m c :=
  (dats m 0 c).arrAt_eq_of_cover 8 (Gfin m c) (fun t _ => flushed8_eq m c t) (cover_result)

/-! ## Over the arguments -/

/-- The input row over the arguments, for a token index in range: the embedding row at the token index, then the
    goal encoding. -/
def rowArgs (c : Dev nD) : FVec Ideal S1x1030 .f32 :=
  concatenate S1x1030 1 [⟨S1x1024, Host.gather gather_S32000x1024_S1x1_S1x1024_1_0_n_n_0_1_11024 (m ((c : Thread nD τ).loc main_arg3))
      (broadcastInDim S1x1 ![0] bcast_S1_S1x1_0 (m ((c : Thread nD τ).loc main_arg0)))⟩,
    ⟨S1x6, m ((c : Thread nD τ).loc main_arg2)⟩] concatenates_S1x1024_S1x6_S1x1030_d1

theorem rowIn_eq (c : Dev nD)
    (h : ∀ i, 0 ≤ ((m ((c : Thread nD τ).loc main_arg0) : IVec S1 32) i).toInt ∧ ((m ((c : Thread nD τ).loc main_arg0) : IVec S1 32) i).toInt < 32000) :
    rowIn m c = rowArgs m c := by
  unfold rowIn rowArgs
  rw [V_main_v7, lookup_eq _ h, V_main_arg2]

/-- Unit `j`'s new value over the arguments. -/
theorem unitVal_args (c : Dev nD) (j : Fin 4096)
    (h : ∀ i, 0 ≤ ((m ((c : Thread nD τ).loc main_arg0) : IVec S1 32) i).toInt ∧ ((m ((c : Thread nD τ).loc main_arg0) : IVec S1 32) i).toInt < 32000) :
    unitVal m c j = GruCell.cell (fun k : Fin 1030 => rowArgs m c (ix2 0 k)) (fun k : Fin 4096 => m ((c : Thread nD τ).loc main_arg1) (ix2 0 k))
      (fun g k => m ((c : Thread nD τ).loc main_arg4) (ix2 (GruCell.gateRow g j) k)) (fun g => m ((c : Thread nD τ).loc main_arg5) (ix1 (GruCell.gateRow g j)))
      (fun g k => m ((c : Thread nD τ).loc main_arg6) (ix2 (GruCell.gateRow g j) k)) (fun g => m ((c : Thread nD τ).loc main_arg7) (ix1 (GruCell.gateRow g j)))
      (m ((c : Thread nD τ).loc main_arg1) (ix2 0 j)) := by
  unfold unitVal
  rw [rowIn_eq m c h, V_main_arg1, V_main_v8, V_main_v9, V_main_v10, V_main_v11]
  simp only [relaid_mat, relaid_vec]

end Cert.KernelIdeal.Hand

end
-- ==== Proof.RefCell.lean ====
/-
  The reference program's result, read one hidden unit at a time: row 0, column j of the run's result is the
  gated cell's new value for hidden unit j, as a function of the concatenated input row, the previous hidden
  row and the unit's weight rows and biases.

  The last forty operations are written once as a function `tail` of the concatenated input row X and the five
  arrays they read; the run's result is `tail` at the run's own term for that row, by unfolding.  Row 0, column c
  of x·Wᵀ is the sum over k of x[0,k]·W[c,k]; the bias is broadcast along axis 1; gate g's slice at column j is
  column 4096 g + j; the spelt-out 1/(1+exp(-x)) is the logistic function.
-/
import proofs.«409868_j40724879901195_3_alg».proof.Proof.Gen.ReferenceIdeal.Run
import proofs.«409868_j40724879901195_3_alg».proof.Proof.Gen.ReferenceIdeal.Read
import proofs.«409868_j40724879901195_3_alg».proof.Proof.Spec
import Idealize.ShloMosaic.Lib.ValueIdx
import Idealize.ShloMosaic.Lib.Pipeline.Value
import Idealize.ShloMosaic.PureOps.Ideal.Laws
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

/-! ## The input side: x·W_ihᵀ + b_ih for an arbitrary row x -/

/-- The input-side pre-activations of all three gates, as one row of 12288 columns. -/
def inp (X : FVec Ideal S1x1030 .f32) (a4 : FVec Ideal S12288x1030 .f32) (a5 : FVec Ideal S12288 .f32) : FVec Ideal S1x12288 .f32 :=
  addf (Host.dotGeneral (F := Ideal) dot_S1x1030_S1030x12288_S1x12288_1_0_0_1_n_n none X (transpose S1030x12288 [1, 0] a4 transposes_S12288x1030_S1030x12288_1_0)) (broadcastInDim S1x12288 ![1] bcast_S12288_S1x12288_1 a5)

/-- The contraction of a row with a matrix, element by element: the sum over the shared axis. -/
theorem dotX_apply (X : FVec Ideal S1x1030 .f32) (W : FVec Ideal S1030x12288 .f32) (i : S1x12288.Idx) :
    Host.dotGeneral (F := Ideal) dot_S1x1030_S1030x12288_S1x12288_1_0_0_1_n_n none X W i = ∑ k : Fin 1030, X (Read.lidx_main_v9 i k) * W (Read.ridx_main_v9 i k) := by
  simp only [Host.dotGeneral]
  rw [Ideal.dotGeneral_apply, ← Equiv.sum_comp (ValueIdx.contrEquiv1 dot_S1x1030_S1030x12288_S1x12288_1_0_0_1_n_n 1030 rfl rfl).symm]
  refine Finset.sum_congr rfl fun k _ => ?_
  have hk := ValueIdx.contrEquiv1_symm_val dot_S1x1030_S1030x12288_S1x12288_1_0_0_1_n_n 1030 rfl rfl k
  have el : dot_S1x1030_S1030x12288_S1x12288_1_0_0_1_n_n.lhsIdx i ((ValueIdx.contrEquiv1 dot_S1x1030_S1030x12288_S1x12288_1_0_0_1_n_n 1030 rfl rfl).symm k) = Read.lidx_main_v9 i k := funext fun a => Fin.ext (by
    match a with
    | ⟨0, _⟩ => exact Read.lhs_main_v9_0 _ _
    | ⟨1, _⟩ => exact (Read.lhs_main_v9_1 _ _).trans hk)
  have er : dot_S1x1030_S1030x12288_S1x12288_1_0_0_1_n_n.rhsIdx i ((ValueIdx.contrEquiv1 dot_S1x1030_S1030x12288_S1x12288_1_0_0_1_n_n 1030 rfl rfl).symm k) = Read.ridx_main_v9 i k := funext fun a => Fin.ext (by
    match a with
    | ⟨0, _⟩ => exact (Read.rhs_main_v9_0 _ _).trans hk
    | ⟨1, _⟩ => exact Read.rhs_main_v9_1 _ _)
  rw [el, er]

/-- Column c of the input side is the inner product of the row with weight row c, plus bias c. -/
theorem inp_apply (X : FVec Ideal S1x1030 .f32) (a4 : FVec Ideal S12288x1030 .f32) (a5 : FVec Ideal S12288 .f32) (c : Fin 12288) :
    inp X a4 a5 (ValueIdx.ix2 (0 : Fin 1) c)
      = GruCell.pre (fun k : Fin 1030 => X (ValueIdx.ix2 0 k)) (fun k : Fin 1030 => a4 (ValueIdx.ix2 c k)) (a5 (ValueIdx.ix1 c)) := by
  have eL : ∀ k : Fin 1030, Read.lidx_main_v9 (ValueIdx.ix2 (0 : Fin 1) c) k = ValueIdx.ix2 (0 : Fin 1) k := fun k =>
    funext fun a => Fin.ext (by match a with | ⟨0, _⟩ => rfl | ⟨1, _⟩ => rfl)
  have eR : ∀ k : Fin 1030, Read.idx_main_v8 (Read.ridx_main_v9 (ValueIdx.ix2 (0 : Fin 1) c) k) = ValueIdx.ix2 c k := fun k =>
    funext fun a => Fin.ext (by match a with | ⟨0, _⟩ => rfl | ⟨1, _⟩ => rfl)
  have eB : Read.idx_main_v10 (ValueIdx.ix2 (0 : Fin 1) c) = ValueIdx.ix1 c :=
    funext fun a => Fin.ext (by match a with | ⟨0, _⟩ => rfl)
  have hT : ∀ i, transpose S1030x12288 [1, 0] a4 transposes_S12288x1030_S1030x12288_1_0 i = a4 (Read.idx_main_v8 i) :=
    fun i => Read.val_main_v8_apply (F := Ideal) a4 i
  have hB : ∀ i, broadcastInDim S1x12288 ![1] bcast_S12288_S1x12288_1 a5 i = a5 (Read.idx_main_v10 i) :=
    fun i => Read.val_main_v10_apply (F := Ideal) a5 i
  unfold inp GruCell.pre
  rw [ValueIdx.addf_apply, dotX_apply, hB, eB]
  simp only [hT, eL, eR]

/-! ## The hidden side: h·W_hhᵀ + b_hh -/

/-- The hidden-side pre-activations of all three gates, as one row of 12288 columns. -/
def hid (a1 : FVec Ideal S1x4096 .f32) (a6 : FVec Ideal S12288x4096 .f32) (a7 : FVec Ideal S12288 .f32) : FVec Ideal S1x12288 .f32 :=
  addf (Host.dotGeneral (F := Ideal) dot_S1x4096_S4096x12288_S1x12288_1_0_0_1_n_n none a1 (transpose S4096x12288 [1, 0] a6 transposes_S12288x4096_S4096x12288_1_0)) (broadcastInDim S1x12288 ![1] bcast_S12288_S1x12288_1 a7)

/-- Column c of the hidden side is the inner product of the previous hidden row with weight row c, plus bias c. -/
theorem hid_apply (a1 : FVec Ideal S1x4096 .f32) (a6 : FVec Ideal S12288x4096 .f32) (a7 : FVec Ideal S12288 .f32) (c : Fin 12288) :
    hid a1 a6 a7 (ValueIdx.ix2 (0 : Fin 1) c)
      = GruCell.pre (fun k : Fin 4096 => a1 (ValueIdx.ix2 0 k)) (fun k : Fin 4096 => a6 (ValueIdx.ix2 c k)) (a7 (ValueIdx.ix1 c)) := by
  have eL : ∀ k : Fin 4096, Read.lidx_main_v13 (ValueIdx.ix2 (0 : Fin 1) c) k = ValueIdx.ix2 (0 : Fin 1) k := fun k =>
    funext fun a => Fin.ext (by match a with | ⟨0, _⟩ => rfl | ⟨1, _⟩ => rfl)
  have eR : ∀ k : Fin 4096, Read.idx_main_v12 (Read.ridx_main_v13 (ValueIdx.ix2 (0 : Fin 1) c) k) = ValueIdx.ix2 c k := fun k =>
    funext fun a => Fin.ext (by match a with | ⟨0, _⟩ => rfl | ⟨1, _⟩ => rfl)
  have eB : Read.idx_main_v14 (ValueIdx.ix2 (0 : Fin 1) c) = ValueIdx.ix1 c :=
    funext fun a => Fin.ext (by match a with | ⟨0, _⟩ => rfl)
  have h15 : hid a1 a6 a7 = Read.val_main_v15 (F := Ideal) a1 a6 a7 := rfl
  unfold GruCell.pre
  rw [h15, Read.val_main_v15_apply, Read.val_main_v13_apply, Read.val_main_v14_apply, eB, Ideal.addf_def]
  simp only [Read.val_main_v12_apply, eL, eR]

/-! ## The three slices: gate g's columns are 4096 g … 4096 g + 4095 -/

theorem slice0_apply (y : FVec Ideal S1x12288 .f32) (j : Fin 4096) :
    extractStridedSlice S1x4096 ![0, 0] y slices_S1x12288_S1x4096_0_0 (ValueIdx.ix2 (0 : Fin 1) j)
      = y (ValueIdx.ix2 (0 : Fin 1) (GruCell.gateRow 0 j)) :=
  extractStridedSlice_apply ![0, 0] y slices_S1x12288_S1x4096_0_0 _ _ (fun a => match a with
    | ⟨0, _⟩ => by show (0 : Nat) = 0 + 0; rfl
    | ⟨1, _⟩ => by show (0 : Fin 3).val * 4096 + j.val = 0 + j.val; simp)

theorem slice1_apply (y : FVec Ideal S1x12288 .f32) (j : Fin 4096) :
    extractStridedSlice S1x4096 ![0, 4096] y slices_S1x12288_S1x4096_0_4096 (ValueIdx.ix2 (0 : Fin 1) j)
      = y (ValueIdx.ix2 (0 : Fin 1) (GruCell.gateRow 1 j)) :=
  extractStridedSlice_apply ![0, 4096] y slices_S1x12288_S1x4096_0_4096 _ _ (fun a => match a with
    | ⟨0, _⟩ => by show (0 : Nat) = 0 + 0; rfl
    | ⟨1, _⟩ => by show (1 : Fin 3).val * 4096 + j.val = 4096 + j.val; simp)

theorem slice2_apply (y : FVec Ideal S1x12288 .f32) (j : Fin 4096) :
    extractStridedSlice S1x4096 ![0, 8192] y slices_S1x12288_S1x4096_0_8192 (ValueIdx.ix2 (0 : Fin 1) j)
      = y (ValueIdx.ix2 (0 : Fin 1) (GruCell.gateRow 2 j)) :=
  extractStridedSlice_apply ![0, 8192] y slices_S1x12288_S1x4096_0_8192 _ _ (fun a => match a with
    | ⟨0, _⟩ => by show (0 : Nat) = 0 + 0; rfl
    | ⟨1, _⟩ => by show (2 : Fin 3).val * 4096 + j.val = 8192 + j.val; simp)

/-! ## The constant row of ones and the spelt-out sigmoid -/

/-- The row whose every entry is the word of 1.0. -/
def ones : FVec Ideal S1x4096 .f32 := broadcastInDim S1x4096 ![] bcast_S_S1x4096 (constant (F := Ideal) S_ .f32 0x3F800000#32)

theorem ones_apply (i : S1x4096.Idx) : ones i = GruCell.one := by
  have h : ones = Read.val_main_v25 (F := Ideal) := rfl
  rw [h, Read.val_main_v25_apply, Read.val_main_cst_apply]
  rfl

/-- 1 / (1 + exp (-v)), entry by entry, as the host spells the sigmoid. -/
def sigm (v : FVec Ideal S1x4096 .f32) : FVec Ideal S1x4096 .f32 :=
  Host.divf ones (addf ones (Host.exp (Host.negf v)))

theorem sigm_apply (v : FVec Ideal S1x4096 .f32) (i : S1x4096.Idx) : sigm v i = Ideal.logistic (v i) := by
  have h : sigm v i = Ideal.div (ones i) (ones i + Ideal.exp (-(v i))) := rfl
  rw [h, ones_apply, GruCell.logistic_spelt]

/-! ## The last forty operations as a function of the concatenated input row -/

theorem tanh_apply (v : FVec Ideal S1x4096 .f32) (i : S1x4096.Idx) : Host.tanh v i = Ideal.tanh (v i) := rfl

/-- The blend of the three gates: everything the program does after the input row is assembled, as a function of
    that row `X`, the previous hidden row `a1`, the packed input-side weights and biases `a4`, `a5` and the packed
    hidden-side weights and biases `a6`, `a7`. -/
def tail (X : FVec Ideal S1x1030 .f32) (a1 : FVec Ideal S1x4096 .f32) (a4 : FVec Ideal S12288x1030 .f32) (a5 : FVec Ideal S12288 .f32)
    (a6 : FVec Ideal S12288x4096 .f32) (a7 : FVec Ideal S12288 .f32) : FVec Ideal S1x4096 .f32 :=
  addf
    (mulf
      (subf ones (sigm (addf (extractStridedSlice S1x4096 ![0, 4096] (inp X a4 a5) slices_S1x12288_S1x4096_0_4096)
                             (extractStridedSlice S1x4096 ![0, 4096] (hid a1 a6 a7) slices_S1x12288_S1x4096_0_4096))))
      (Host.tanh (addf (extractStridedSlice S1x4096 ![0, 8192] (inp X a4 a5) slices_S1x12288_S1x4096_0_8192)
                       (mulf (sigm (addf (extractStridedSlice S1x4096 ![0, 0] (inp X a4 a5) slices_S1x12288_S1x4096_0_0)
                                         (extractStridedSlice S1x4096 ![0, 0] (hid a1 a6 a7) slices_S1x12288_S1x4096_0_0)))
                             (extractStridedSlice S1x4096 ![0, 8192] (hid a1 a6 a7) slices_S1x12288_S1x4096_0_8192)))))
    (mulf (sigm (addf (extractStridedSlice S1x4096 ![0, 4096] (inp X a4 a5) slices_S1x12288_S1x4096_0_4096)
                      (extractStridedSlice S1x4096 ![0, 4096] (hid a1 a6 a7) slices_S1x12288_S1x4096_0_4096)))
          a1)

/-- Row 0, column j of the blend is the cell's new value for hidden unit j, for ANY input row `X`. -/
theorem tail_cell (X : FVec Ideal S1x1030 .f32) (a1 : FVec Ideal S1x4096 .f32) (a4 : FVec Ideal S12288x1030 .f32) (a5 : FVec Ideal S12288 .f32)
    (a6 : FVec Ideal S12288x4096 .f32) (a7 : FVec Ideal S12288 .f32) (j : Fin 4096) :
    tail X a1 a4 a5 a6 a7 (ValueIdx.ix2 (0 : Fin 1) j)
      = GruCell.cell (fun k : Fin 1030 => X (ValueIdx.ix2 0 k)) (fun k : Fin 4096 => a1 (ValueIdx.ix2 0 k))
          (fun g k => a4 (ValueIdx.ix2 (GruCell.gateRow g j) k)) (fun g => a5 (ValueIdx.ix1 (GruCell.gateRow g j)))
          (fun g k => a6 (ValueIdx.ix2 (GruCell.gateRow g j) k)) (fun g => a7 (ValueIdx.ix1 (GruCell.gateRow g j)))
          (a1 (ValueIdx.ix2 0 j)) := by
  unfold tail GruCell.cell
  simp only [ValueIdx.addf_apply, ValueIdx.mulf_apply, ValueIdx.subf_apply, tanh_apply, sigm_apply, ones_apply,
    slice0_apply, slice1_apply, slice2_apply, inp_apply, hid_apply]

/-! ## The run's result -/

/-- The run's own term for the concatenated input row: the embedding row picked by the (wrapped) token index, then
    the six goal entries. -/
abbrev xrow (a0 : (⟨S1, .i32⟩ : BufTy).Contents (Elt Ideal)) (a2 : FVec Ideal S1x6 .f32) (a3 : FVec Ideal S32000x1024 .f32) : FVec Ideal S1x1030 .f32 :=
  concatenate S1x1030 1 [⟨S1x1024, (Host.gather gather_S32000x1024_S1x1_S1x1024_1_0_n_n_0_1_11024 a3 (broadcastInDim S1x1 ![0] bcast_S1_S1x1_0 (select (cmpi .slt a0 (broadcastInDim S1 ![] bcast_S_S1 (constantI S_ 32 0#32))) (addi a0 (broadcastInDim S1 ![] bcast_S_S1 (constantI S_ 32 32000#32))) a0)))⟩, ⟨S1x6, a2⟩] concatenates_S1x1024_S1x6_S1x1030_d1

/-- That term is the generated stage for the concatenation. -/
theorem xrow_eq (a0 : (⟨S1, .i32⟩ : BufTy).Contents (Elt Ideal)) (a2 : FVec Ideal S1x6 .f32) (a3 : FVec Ideal S32000x1024 .f32) :
    xrow a0 a2 a3 = Read.val_main_v7 (F := Ideal) a0 a2 a3 := rfl

set_option maxRecDepth 8192 in
/-- The run's result is the blend at the run's input row. -/
theorem res_eq_tail (m : (ℓ : Loc nD τ sig) → Buf (Elt Ideal) ℓ) (c : Dev nD) :
    Value.res_main_v43 (F := Ideal) m c
      = tail (xrow (m ((c.tc : Thread nD τ).loc main_arg0)) (m ((c.tc : Thread nD τ).loc main_arg2)) (m ((c.tc : Thread nD τ).loc main_arg3)))
          (m ((c.tc : Thread nD τ).loc main_arg1)) (m ((c.tc : Thread nD τ).loc main_arg4)) (m ((c.tc : Thread nD τ).loc main_arg5))
          (m ((c.tc : Thread nD τ).loc main_arg6)) (m ((c.tc : Thread nD τ).loc main_arg7)) := by
  unfold Value.res_main_v43; rfl

/-- Row 0, column j of the run's result is the cell's new value for hidden unit j, from the run's input row, the previous
    hidden row, and the unit's rows of the packed weights and biases. -/
theorem ref_cell (m : (ℓ : Loc nD τ sig) → Buf (Elt Ideal) ℓ) (c : Dev nD) (j : Fin 4096) :
    (Value.res_main_v43 (F := Ideal) m c : FVec Ideal S1x4096 .f32) (ValueIdx.ix2 (0 : Fin 1) j)
      = GruCell.cell
          (fun k : Fin 1030 => xrow (m ((c.tc : Thread nD τ).loc main_arg0)) (m ((c.tc : Thread nD τ).loc main_arg2)) (m ((c.tc : Thread nD τ).loc main_arg3)) (ValueIdx.ix2 0 k))
          (fun k : Fin 4096 => (m ((c.tc : Thread nD τ).loc main_arg1) : FVec Ideal S1x4096 .f32) (ValueIdx.ix2 0 k))
          (fun g k => (m ((c.tc : Thread nD τ).loc main_arg4) : FVec Ideal S12288x1030 .f32) (ValueIdx.ix2 (GruCell.gateRow g j) k))
          (fun g => (m ((c.tc : Thread nD τ).loc main_arg5) : FVec Ideal S12288 .f32) (ValueIdx.ix1 (GruCell.gateRow g j)))
          (fun g k => (m ((c.tc : Thread nD τ).loc main_arg6) : FVec Ideal S12288x4096 .f32) (ValueIdx.ix2 (GruCell.gateRow g j) k))
          (fun g => (m ((c.tc : Thread nD τ).loc main_arg7) : FVec Ideal S12288 .f32) (ValueIdx.ix1 (GruCell.gateRow g j)))
          ((m ((c.tc : Thread nD τ).loc main_arg1) : FVec Ideal S1x4096 .f32) (ValueIdx.ix2 0 j)) := by
  rw [res_eq_tail]
  exact tail_cell _ _ _ _ _ _ j

end Cert.ReferenceIdeal.Hand

end
-- ==== Proof.PreIdx.lean ====
/-
  The precondition, read at the token index.

  The precondition is a conjunction: every float argument is finite, and the one token index is at least 0 and below
  32000, the number of rows of the embedding table.  Only the last two conjuncts are opened here.  Each is an
  all-reduction of a comparison over the one-element index vector, so it says that the comparison holds of the one
  element; read signed, the index is in [0, 32000).
-/
import proofs.«409868_j40724879901195_3_alg».proof.Proof.Gen.Pre_finite_inputs
import proofs.«409868_j40724879901195_3_alg».proof.Proof.Index
import Idealize.ShloMosaic.Lib.ReduceAll
import Idealize.ShloMosaic.Lib.ValueIdx

namespace Cert.Pre_finite_inputs.Hand

open Idealize.ShloMosaic
open Cert.Pre_finite_inputs Cert.Pre_finite_inputs.Gen

instance : Subsingleton S_.Idx := ⟨fun a b => funext fun d => d.elim0⟩

theorem and1 : ∀ (a b : BitVec 1), IntOp.andi a b = 1#1 ↔ a = 1#1 ∧ b = 1#1 := by decide

/-- Where the precondition holds, the token index is in range. -/
theorem index_in_range {F : FTy → Type} [FloatOps F] (a0 : IVec S1 32) (a1 : FVec F S1x4096 .f32) (a2 : FVec F S1x6 .f32)
    (a3 : FVec F S32000x1024 .f32) (a4 : FVec F S12288x1030 .f32) (a5 : FVec F S12288 .f32) (a6 : FVec F S12288x4096 .f32)
    (a7 : FVec F S12288 .f32) (h : fn (F := F) a0 a1 a2 a3 a4 a5 a6 a7 = fun _ => 1#1) (i : S1.Idx) :
    0 ≤ (a0 i).toInt ∧ (a0 i).toInt < 32000 := by
  have e := congrFun h ValueIdx.ix0
  unfold fn fn_part1 fn_part2 at e
  simp only [andi] at e
  rw [and1, and1] at e
  obtain ⟨⟨-, r1⟩, r2⟩ := e
  have g1 := Host.reduce_andi_all _ _ _ _ _ r1 i
  have g2 := Host.reduce_andi_all _ _ _ _ _ r2 i
  exact GruCell.range_of_cmp g1 g2

end Cert.Pre_finite_inputs.Hand
-- ==== Proof.lean ====
/-
  One step of a gated recurrent cell on a batch of one: the token's embedding row joined with a goal encoding is the
  input, the previous hidden row the state; each of the 4096 hidden units takes an input-side and a hidden-side
  pre-activation for the reset, update and candidate gates (an inner product with the unit's weight row, plus a bias)
  and blends the candidate with its previous value.

  The kernel computes the units in sixteen tiles of 256 inside one pipelined region, after host lines that clamp the
  token index into the embedding table, gather the row and re-lay the packed weights gate by gate; the reference
  computes all units at once with two matrix products over the packed weights and slices the gates out.  Over the
  extended reals the two spell the same operations in the same order for every unit — a format change is the
  identity, a product into a zero accumulator is the plain sum, a tile is a restriction of the whole — so their results
  agree exactly, with no appeal to finiteness.  What does differ is the lookup: the kernel clamps the index before
  looking it up, the reference wraps a negative index from the table's end; the two agree exactly when the index is in
  range, 0 ≤ index < 32000, which the precondition states.

  The frames: the reference is a host program, its run is read back operation by operation; the kernel's run (at the
  word level and at the ideal level alike) goes through the pipelined region, whose two windows on the previous
  hidden row share that array by halves.
-/
import proofs.«409868_j40724879901195_3_alg».proof.Defs
import proofs.«409868_j40724879901195_3_alg».proof.Proof.Gen.Kernel
import proofs.«409868_j40724879901195_3_alg».proof.Proof.Gen.KernelIdeal
import proofs.«409868_j40724879901195_3_alg».proof.Proof.Gen.ReferenceIdeal
import proofs.«409868_j40724879901195_3_alg».proof.Proof.Gen.Pre_finite_inputs
import proofs.«409868_j40724879901195_3_alg».proof.Proof.RunK
import proofs.«409868_j40724879901195_3_alg».proof.Proof.ValueKI
import proofs.«409868_j40724879901195_3_alg».proof.Proof.RefCell
import proofs.«409868_j40724879901195_3_alg».proof.Proof.PreIdx
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

/-! ## The frames -/

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-! ## The two lookups agree on an index in range -/

/-- An index vector with no negative entry is left alone by the wrap of negative indices. -/
theorem wrapped_eq (a0 : IVec Cert.ReferenceIdeal.S1 32) (h : ∀ i, 0 ≤ (a0 i).toInt) :
    select (cmpi .slt a0 (broadcastInDim Cert.ReferenceIdeal.S1 ![] Cert.ReferenceIdeal.Facts₀.bcast_S_S1 (constantI Cert.ReferenceIdeal.S_ 32 0#32)))
        (addi a0 (broadcastInDim Cert.ReferenceIdeal.S1 ![] Cert.ReferenceIdeal.Facts₀.bcast_S_S1 (constantI Cert.ReferenceIdeal.S_ 32 32000#32))) a0 = a0 :=
  funext fun i => GruCell.wrap_id (h i)

/-- So the reference's input row is the kernel's, over the same arguments. -/
theorem rows_agree (m : (ℓ : Loc Cert.KernelIdeal.nD Cert.KernelIdeal.τ Cert.KernelIdeal.sig) → Buf (Elt Ideal) ℓ) (c : Dev Cert.KernelIdeal.nD)
    (h : ∀ i, 0 ≤ ((m ((c.tc : Thread Cert.KernelIdeal.nD Cert.KernelIdeal.τ).loc Cert.KernelIdeal.main_arg0) : IVec Cert.KernelIdeal.S1 32) i).toInt) :
    Cert.ReferenceIdeal.Hand.xrow (m ((c.tc : Thread Cert.KernelIdeal.nD Cert.KernelIdeal.τ).loc Cert.KernelIdeal.main_arg0))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
      = Cert.KernelIdeal.Hand.rowArgs m c := by
  unfold Cert.KernelIdeal.Hand.rowArgs
  show concatenate Cert.ReferenceIdeal.S1x1030 1 [⟨Cert.ReferenceIdeal.S1x1024, Host.gather _ _ (broadcastInDim Cert.ReferenceIdeal.S1x1 ![0] _
      (select (cmpi .slt (m ((c.tc : Thread Cert.KernelIdeal.nD Cert.KernelIdeal.τ).loc Cert.KernelIdeal.main_arg0) : IVec Cert.ReferenceIdeal.S1 32) _) (addi _ _) _))⟩, _] _ = _
  rw [wrapped_eq _ h]
  rfl

/-! ## The results agree -/

theorem algebraic : Cert.algebraic_KernelIdeal_ReferenceIdeal := by
  intro m ρ m' ρ' hpre hagree
  have hidx : ∀ c : Dev Cert.KernelIdeal.nD, ∀ i,
      0 ≤ ((m ((c.tc : Thread Cert.KernelIdeal.nD Cert.KernelIdeal.τ).loc Cert.KernelIdeal.main_arg0) : IVec Cert.KernelIdeal.S1 32) i).toInt
      ∧ ((m ((c.tc : Thread Cert.KernelIdeal.nD Cert.KernelIdeal.τ).loc Cert.KernelIdeal.main_arg0) : IVec Cert.KernelIdeal.S1 32) i).toInt < 32000 :=
    fun c i => Cert.Pre_finite_inputs.Hand.index_in_range _ _ _ _ _ _ _ _ (hpre c) i
  refine ⟨fun c => Cert.KernelIdeal.Hand.Gfin m c, ?_, ?_⟩
  · exact (θ_run Cert.KernelIdeal.defs _ _).mono
      (fun r h c => ⟨(h c).1.trans (Cert.KernelIdeal.Hand.final8 m c), (h c).2⟩) (Cert.KernelIdeal.Hand.run_result m ρ)
  · refine (θ_run Cert.ReferenceIdeal.defs _ _).mono (fun r h c => ⟨(h c).1.trans ?_, (h c).2⟩)
      (Cert.ReferenceIdeal.Value.run (F := Ideal) m' ρ')
    show (Cert.ReferenceIdeal.Value.res_main_v43 (F := Ideal) m' c : Cert.ReferenceIdeal.S1x4096.Idx → EReal) = Cert.KernelIdeal.Hand.Gfin m c
    funext i
    have hi0 : (i 0).val < 1 := (i 0).isLt
    have hi1 : (i 1).val < 4096 := (i 1).isLt
    obtain ⟨j, rfl⟩ : ∃ j : Fin 4096, i = ix2 (0 : Fin 1) j :=
      ⟨⟨(i 1).val, hi1⟩, funext fun a => Fin.ext (by
        match a with
        | ⟨0, _⟩ => show (i 0).val = 0; omega
        | ⟨1, _⟩ => rfl)⟩
    rw [Cert.ReferenceIdeal.Hand.ref_cell m' c j]
    show _ = Cert.KernelIdeal.Hand.unitVal m c j
    rw [Cert.KernelIdeal.Hand.unitVal_args m c j (hidx c)]
    obtain ⟨h0, h1, h2, h3, h4, h5, h6, h7⟩ := hagree c
    rw [h0, h1, h2, h3, h4, h5, h6, h7, rows_agree m c fun i => (hidx c i).1]

/-! ## The claim -/

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
